-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1x12800 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x100000 : Shape := ⟨2, ![1, 100000]⟩
abbrev S128x1 : Shape := ⟨2, ![128, 1]⟩
abbrev S5x128 : Shape := ⟨2, ![5, 128]⟩
abbrev S5x1 : Shape := ⟨2, ![5, 1]⟩
abbrev S5x100000 : Shape := ⟨2, ![5, 100000]⟩
abbrev S1x12800 : Shape := ⟨2, ![1, 12800]⟩
abbrev S5x12800 : Shape := ⟨2, ![5, 12800]⟩
abbrev S128x12800 : Shape := ⟨2, ![128, 12800]⟩
abbrev S100000x5 : Shape := ⟨2, ![100000, 5]⟩

abbrev nBuf : Space → Nat
  | .hbm => 32
  | .vmem => 9
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S1x100000, .f32⟩
  | .hbm, ⟨8, _⟩ => ⟨S128, .f32⟩
  | .hbm, ⟨9, _⟩ => ⟨S128, .bf16⟩
  | .hbm, ⟨10, _⟩ => ⟨S128, .f32⟩
  | .hbm, ⟨11, _⟩ => ⟨S128, .f32⟩
  | .hbm, ⟨12, _⟩ => ⟨S128, .bf16⟩
  | .hbm, ⟨13, _⟩ => ⟨S128, .bf16⟩
  | .hbm, ⟨14, _⟩ => ⟨S128, .f32⟩
  | .hbm, ⟨15, _⟩ => ⟨S128, .f32⟩
  | .hbm, ⟨16, _⟩ => ⟨S128, .bf16⟩
  | .hbm, ⟨17, _⟩ => ⟨S128x1, .bf16⟩
  | .hbm, ⟨18, _⟩ => ⟨S128x1, .bf16⟩
  | .hbm, ⟨19, _⟩ => ⟨S128x1, .bf16⟩
  | .hbm, ⟨20, _⟩ => ⟨S128x1, .bf16⟩
  | .hbm, ⟨21, _⟩ => ⟨S128x1, .bf16⟩
  | .hbm, ⟨22, _⟩ => ⟨S128x5, .bf16⟩
  | .hbm, ⟨23, _⟩ => ⟨S128x128, .f32⟩
  | .hbm, ⟨24, _⟩ => ⟨S128x128, .bf16⟩
  | .hbm, ⟨25, _⟩ => ⟨S128, .bf16⟩
  | .hbm, ⟨26, _⟩ => ⟨S128x1, .bf16⟩
  | .hbm, ⟨27, _⟩ => ⟨S5x128, .f32⟩
  | .hbm, ⟨28, _⟩ => ⟨S5x128, .bf16⟩
  | .hbm, ⟨29, _⟩ => ⟨S5x1, .f32⟩
  | .hbm, ⟨30, _⟩ => ⟨S5x100000, .f32⟩
  | .hbm, ⟨31, _⟩ => ⟨S100000x5, .f32⟩
  | .local _ .vmem, ⟨0, _⟩ => ⟨S1x12800, .f32⟩
  | .local _ .vmem, ⟨1, _⟩ => ⟨S1x12800, .f32⟩
  | .local _ .vmem, ⟨2, _⟩ => ⟨S128x5, .bf16⟩
  | .local _ .vmem, ⟨3, _⟩ => ⟨S128x128, .bf16⟩
  | .local _ .vmem, ⟨4, _⟩ => ⟨S128x1, .bf16⟩
  | .local _ .vmem, ⟨5, _⟩ => ⟨S5x128, .bf16⟩
  | .local _ .vmem, ⟨6, _⟩ => ⟨S5x1, .f32⟩
  | .local _ .vmem, ⟨7, _⟩ => ⟨S5x12800, .f32⟩
  | .local _ .vmem, ⟨8, _⟩ => ⟨S5x12800, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x12800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S100000_S1x100000 : S100000.ShapeCasts S1x100000
  shapeCasts_S1x128_S128 : S1x128.ShapeCasts S128
  bitsLt_bf16_f32 : FTy.bits .bf16 < FTy.bits .f32
  bcast_S128_S128x1_0 : S128.BroadcastsInDim S128x1 (![0] : Fin 1 → Fin S128x1.rank)
  concatenates_S128x1_S128x1_S128x1_S128x1_S128x1_S128x5_d1 : Shape.Concatenates [S128x1, S128x1, S128x1, S128x1, S128x1] S128x5 1
  transposes_S128x128_S128x128_1_0 : S128x128.Transposes [1, 0] S128x128
  shapeCasts_S128_S128x1 : S128.ShapeCasts S128x1
  transposes_S128x5_S5x128_1_0 : S128x5.Transposes [1, 0] S5x128
  shapeCasts_S5_S5x1 : S5.ShapeCasts S5x1
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  concatenates_S1x12800_S1x12800_S1x12800_S1x12800_S1x12800_S5x12800_d0 : Shape.Concatenates [S1x12800, S1x12800, S1x12800, S1x12800, S1x12800] S5x12800 0
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x12800 : S128x1.Broadcasts S128x12800
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x12800 : S5x1.Broadcasts S5x12800
  inb_S5x12800_S5x12800_0_0 : ∀ a, (![0, 0] : Fin 2 → Nat) a + S5x12800.size a ≤ S5x12800.size a
  h_S5x12800 : 0 < S5x12800.numel
  transposes_S5x100000_S100000x5_1_0 : S5x100000.Transposes [1, 0] S100000x5
  dot_S128x5_S5x12800_S128x12800_1_0_0_1_n_n_wf : DotDims.WF S128x5 S5x12800 S128x12800 [1] [0] [0] [1] [] []
  dot_S128x128_S128x12800_S128x12800_1_0_0_1_n_n_wf : DotDims.WF S128x128 S128x12800 S128x12800 [1] [0] [0] [1] [] []
  dot_S5x128_S128x12800_S5x12800_1_0_0_1_n_n_wf : DotDims.WF S5x128 S128x12800 S5x12800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x12800.size a < S1x100000.size a
  hwx0_0 : ∀ i : grid0.Coords, EltTy.bits .f32 = 32 ∨ (Rect.unit (s := S1x100000) (fun a => cc0_transform_0 i a * S1x12800.size a) (fun a => (Pipeline.Clip.of (cc0_transform_0 i a) (S1x12800.size a) (S1x100000.size a)).extent (S1x12800.size a)) fun a => Pipeline.Clip.inb (Pipeline.Clip.ok_of (hstart0_0 i a))).WholeWords (EltTy.packing .f32)
  hwxs0_0 : ∀ i : grid0.Coords, EltTy.bits .f32 = 32 ∨ (Rect.unit (s := S1x12800) (fun _ => 0) (fun a => (Pipeline.Clip.of (cc0_transform_0 i a) (S1x12800.size a) (S1x100000.size a)).extent (S1x12800.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S128x5.size a
  hwx0_1 : ∀ i : grid0.Coords, EltTy.bits .bf16 = 32 ∨ (Rect.block (s := S128x5) S128x5.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .bf16 = 32 ∨ (Rect.block (s := S5x128) S5x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1.size a ≤ S5x1.size a
  hwx0_5 : ∀ i : grid0.Coords, EltTy.bits .f32 = 32 ∨ (Rect.block (s := S5x1) S5x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S5x12800.size a < S5x100000.size a
  hwx0_6 : ∀ i : grid0.Coords, EltTy.bits .f32 = 32 ∨ (Rect.unit (s := S5x100000) (fun a => cc0_transform_6 i a * S5x12800.size a) (fun a => (Pipeline.Clip.of (cc0_transform_6 i a) (S5x12800.size a) (S5x100000.size a)).extent (S5x12800.size a)) fun a => Pipeline.Clip.inb (Pipeline.Clip.ok_of (hstart0_6 i a))).WholeWords (EltTy.packing .f32)
  hwxs0_6 : ∀ i : grid0.Coords, EltTy.bits .f32 = 32 ∨ (Rect.unit (s := S5x12800) (fun _ => 0) (fun a => (Pipeline.Clip.of (cc0_transform_6 i a) (S5x12800.size a) (S5x100000.size a)).extent (S5x12800.size a)) fun a => (Nat.zero_add _).trans_le (Pipeline.Clip.extent_le (Pipeline.Clip.ok_of (hstart0_6 i a)))).WholeWords (EltTy.packing .f32)

variable [Facts₀]

def dot_S128x5_S5x12800_S128x12800_1_0_0_1_n_n : DotDims S128x5 S5x12800 S128x12800 where
  lhsContracting := [1]
  rhsContracting := [0]
  lhsNonContracting := [0]
  rhsNonContracting := [1]
  lhsBatch := []
  rhsBatch := []
  wf := dot_S128x5_S5x12800_S128x12800_1_0_0_1_n_n_wf
def dot_S128x128_S128x12800_S128x12800_1_0_0_1_n_n : DotDims S128x128 S128x12800 S128x12800 where
  lhsContracting := [1]
  rhsContracting := [0]
  lhsNonContracting := [0]
  rhsNonContracting := [1]
  lhsBatch := []
  rhsBatch := []
  wf := dot_S128x128_S128x12800_S128x12800_1_0_0_1_n_n_wf
def dot_S5x128_S128x12800_S5x12800_1_0_0_1_n_n : DotDims S5x128 S128x12800 S5x12800 where
  lhsContracting := [1]
  rhsContracting := [0]
  lhsNonContracting := [0]
  rhsNonContracting := [1]
  lhsBatch := []
  rhsBatch := []
  wf := dot_S5x128_S128x12800_S5x12800_1_0_0_1_n_n_wf

abbrev win0_0 : Pipeline.Window sig grid0 :=
  Pipeline.Window.ofSpecClip (Memref.whole main_v0) S1x12800.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v15) S128x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v23) S5x12800.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S100000x128 : Shape := ⟨2, ![100000, 128]⟩
abbrev S_ : Shape := ⟨0, ![]⟩
abbrev S100000x5 : Shape := ⟨2, ![100000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x5, .f32⟩
  | .hbm, ⟨23, _⟩ => ⟨S1x5, .f32⟩
  | .hbm, ⟨24, _⟩ => ⟨S100000x5, .f32⟩
  | .hbm, ⟨25, _⟩ => ⟨S100000x5, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.KernelFrame.lean ====
/-
  The word-level program runs to its end without a fault and leaves its seven argument arrays as it found them.
-/
import proofs.«137531_g64828236366229_cont_9to1_m_1379_10_alg».proof.Proof.Gen.Kernel.Launch
import proofs.«137531_g64828236366229_cont_9to1_m_1379_10_alg».proof.Proof.Gen.Kernel.Skeleton
import proofs.«137531_g64828236366229_cont_9to1_m_1379_10_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The host operations around the region -/

section Host

variable (m : (ℓ : Loc nD τ sig) → Buf (Elt F) ℓ)

/-- Core `c`'s buffer contents when the region is entered: what the host operations before it leave. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first stretch of host operations, the region, and the last host operation: it reduces to
    the region continued by that operation, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, the transposed output, which is no array of the pipeline … -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)
/-- … and is the one buffer written after the region. -/
theorem sfx_T : ∀ ops ∈ ([hostOps1] : List (List (HloOp τ sig (Elt F)))), ∀ op ∈ ops,
    ∀ b : Ref sig .tc, Proc.devRef .tc b ∈ op.writes → b ∈ ({main_v24} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  simp only [StableHlo.unary_writes, Finset.mem_singleton] at hb
  exact Finset.mem_singleton.mpr (Proc.devRef_injective _ hb)

/-- The results of the host operations before the region, in order: the only buffers they write. -/
def written0 : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22]

/-- A buffer that is none of those results is found by the region as the program was launched with it: every
    operation (the concatenation of five operands included) writes its one result. -/
theorem V_of_not_written (c : Dev nD) (b : Ref sig .tc) (hb : ∀ y ∈ written0, b ≠ y) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (hb _ (by simp only [written0, List.mem_cons, List.mem_nil_iff, or_false, true_or, or_true]))))

end Host

/-! ## The kernel body -/

/-- The kernel body on seven whole staging memrefs, each held in full at some contents: it loads the six operand
    blocks (and, to no effect, the output block), stores a value computed from the six into the output block, and
    returns; the six operand memrefs hold what they held, the output memref something. -/
theorem sound_kernel (c : Dev nD) (E : Set ℕ) (i : grid0.Coords)
    (arg1 : Memref sig .tc .vmem S1x12800 .f32) (harg1 : arg1.IsWhole) (arg2 : Memref sig .tc .vmem S128x5 .bf16) (harg2 : arg2.IsWhole)
    (arg3 : Memref sig .tc .vmem S128x128 .bf16) (harg3 : arg3.IsWhole) (arg4 : Memref sig .tc .vmem S128x1 .bf16) (harg4 : arg4.IsWhole)
    (arg5 : Memref sig .tc .vmem S5x128 .bf16) (harg5 : arg5.IsWhole) (arg6 : Memref sig .tc .vmem S5x1 .f32) (harg6 : arg6.IsWhole)
    (arg7 : Memref sig .tc .vmem S5x12800 .f32) (harg7 : arg7.IsWhole)
    (x1 : Vec F S1x12800 .f32) (x2 : Vec F S128x5 .bf16) (x3 : Vec F S128x128 .bf16) (x4 : Vec F S128x1 .bf16)
    (x5 : Vec F S5x128 .bf16) (x6 : Vec F S5x1 .f32) (x7 : Vec F S5x12800 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ X, owns (c : Thread nD τ) arg7 fullShare X)) -∗ K ⟨⟩))
      ⊢ wp frame (wpE (defs₀ (F := F)) Variants.none c none) E
          (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; iexists _; isplitr
  swap; · iexact H7
  ipureintro; rfl

/-! ## The proof data, the body obligation, the run -/

section Run

variable (m : (ℓ : Loc nD τ sig) → Buf (Elt F) ℓ) (ρ : Dev nD → PrngReg)

/-- The pipeline's proof data on core `c`, relational: the windowed arrays as the region finds them (`V`); of what
    the body leaves in a staging buffer nothing is said (the claim reads no window's array after the run); the
    invariant is the class's (the scoped buffers that are no staging buffer and the generator register, untouched);
    nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- Every array is held in full. -/
theorem share_eq (c : Dev nD) (w : Fin cfg0.W) : (rdats m c).share w = fullShare := by
  unfold RDat.share; split <;> rfl

/-- The body at any point `t`, whatever the seven current staging buffers hold (`Y`): the invariant and what the
    core owes pass through unread, the buffers come back each at some contents. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X)
            ∗ (∃ X, ⌜(rdats m c).after 5 t (Y 5) X⌝ ∗ owns (c : Thread nD τ) (st0_5 t) fullShare X)
            ∗ (∃ X, ⌜(rdats m c).after 6 t (Y 6) X⌝ ∗ owns (c : Thread nD τ) (st0_6 t) fullShare X))) := by
  rw [show (rdats m c).Φ t.succ = (rdats m c).Φ t.castSucc from rfl,
    show (rdats m c).owesAt () t.succ = (rdats m c).owesAt () t.castSucc from rfl]
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%X, H6⟩⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  isplitl [H3]
  · iexists Y 3; isplitr; · ipureintro; trivial
    iexact H3
  isplitl [H4]
  · iexists Y 4; isplitr; · ipureintro; trivial
    iexact H4
  isplitl [H5]
  · iexists Y 5; isplitr; · ipureintro; trivial
    iexact H5
  iexists X; isplitr; · ipureintro; trivial
  iexact H6

/-- The library's body obligation of the relational data, at every point: what the buffers may hold is not used. -/
theorem body_obligation (c : Dev nD) : (rdats m c).BodyObligation (defs₀ (F := F)) Variants.none () Set.univ := fun t Y _ => by
  rw [bigSep_W0, bigSep_W0]
  exact sound_body m c t Y

-- the run theorem's implicit arguments are found by unifying its conclusion with this one, which takes unfolding plain
-- definitions in a metavariable's type
set_option backward.isDefEq.respectTransparency.types false in
/-- From any memory with zero counters, every weakly fair execution of the program on the TensorCores terminates, and
    in every final state each windowed array holds something it may hold after the write-backs and every other unscoped
    buffer but the transposed result what it held when the region was entered. -/
theorem run_main : θ_run defs (onTc (τ := τ) (main (F := F))) (s₀ m ρ)
    (RDat.FramePostR cfg0 (rdats m) ({main_v24} : Finset (Ref sig .tc)) (V m)) :=
  Pipeline.RDat.θ_run_frame_around_T cfgs (0 : Fin 1) launch0 defs₀ Variants.none (rdats m) {main_v24} m ρ main
    (hbody := body_obligation m) (hshare := share_eq m) (howed := fun _ _ => rfl) (V₀ := V0 m) (opss := [hostOps1])
    (hsub := sfx_sub) (hfresh := sfx_fresh) (hkeep := sfx_keeps) (hT := sfx_T) (hmain := hmain m Variants.none)
    (hA := fun _ _ => rfl) (hΦ := fun _ _ => rfl)

end Run

/-- The frame: the program terminates without fault and its seven argument arrays end as they were launched. None is
    an array of the pipeline's windows and none is the transposed result, so each ends as the region found it, and no
    host operation before the region writes it. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have key : ∀ b : Ref sig .tc, b.isScoped = false → (∀ w, (spec0 w).arr.view.ref ≠ b) → b ≠ main_v24 →
      (∀ y ∈ written0, b ≠ y) → r.2.mem ((c.tc : Thread nD τ).loc b) = m ((c.tc : Thread nD τ).loc b) :=
    fun b hs ha hn hw => ((h c).2 b (Finset.mem_sdiff.mpr ⟨Pipeline.mem_restRefs_of b hs ha,
      fun hb => hn (Finset.mem_singleton.mp hb)⟩)).trans (V_of_not_written m c b hw)
  exact ⟨key main_arg0 (by decide) (by decide) (by decide) (by decide),
    key main_arg1 (by decide) (by decide) (by decide) (by decide),
    key main_arg2 (by decide) (by decide) (by decide) (by decide),
    key main_arg3 (by decide) (by decide) (by decide) (by decide),
    key main_arg4 (by decide) (by decide) (by decide) (by decide),
    key main_arg5 (by decide) (by decide) (by decide) (by decide),
    key main_arg6 (by decide) (by decide) (by decide) (by decide)⟩

end Cert.Kernel.Hand

end
-- ==== Proof.Operands.lean ====
/-
  The arrays the host program hands the fused perceptron kernel, as functions of the program's arguments, and the
  transposition it applies to the kernel's result. The input row is the 100000 inputs laid out as one row; the first
  layer's matrix has five columns per unit — the weight's leading part twice, the weight's remainder after that part
  is taken off, the bias's leading part and the bias's remainder —; the second and third layers' weights arrive
  transposed, the biases as columns.
-/
import proofs.«137531_g64828236366229_cont_9to1_m_1379_10_alg».proof.KernelIdeal
import proofs.«137531_g64828236366229_cont_9to1_m_1379_10_alg».proof.Proof.Gen.KernelIdeal

noncomputable section

namespace Cert.KernelIdeal.Opd

open Cert.KernelIdeal Cert.KernelIdeal.Gen
open Idealize.ShloMosaic

variable {F : FTy → Type} [FloatOps F]

/-- The inputs as one row of 100000. -/
def rowT (t : FVec F S100000 .f32) : FVec F S1x100000 .f32 := shapeCast S1x100000 t shapeCasts_S100000_S1x100000

/-- The first layer's weights as a vector of 128. -/
def w1c (W1 : FVec F S1x128 .f32) : FVec F S128 .f32 := shapeCast S128 W1 shapeCasts_S1x128_S128

/-- The leading part of a vector of 128 (its rounding to the short format), -/
def lead (x : FVec F S128 .f32) : FVec F S128 .bf16 := truncf .bf16 x bitsLt_bf16_f32

/-- and what is left of it once the leading part is taken off, rounded the same way. -/
def rest (x : FVec F S128 .f32) : FVec F S128 .bf16 :=
  truncf .bf16 (subf x (extf .f32 (lead x) bitsLt_bf16_f32)) bitsLt_bf16_f32

/-- A vector of 128 as a column. -/
def col (x : FVec F S128 .bf16) : FVec F S128x1 .bf16 := broadcastInDim S128x1 ![0] bcast_S128_S128x1_0 x

/-- The first layer's matrix: per unit the five entries weight-lead, weight-lead, weight-rest, bias-lead, bias-rest. -/
def a1 (W1 : FVec F S1x128 .f32) (b1 : FVec F S128 .f32) : FVec F S128x5 .bf16 :=
  concatenate S128x5 1 [⟨S128x1, col (lead (w1c W1))⟩, ⟨S128x1, col (lead (w1c W1))⟩, ⟨S128x1, col (rest (w1c W1))⟩,
    ⟨S128x1, col (lead b1)⟩, ⟨S128x1, col (rest b1)⟩] concatenates_S128x1_S128x1_S128x1_S128x1_S128x1_S128x5_d1

/-- The second layer's weights, transposed. -/
def w2t (W2 : FVec F S128x128 .f32) : FVec F S128x128 .bf16 :=
  truncf .bf16 (transpose S128x128 [1, 0] W2 transposes_S128x128_S128x128_1_0) bitsLt_bf16_f32

/-- The second layer's bias as a column. -/
def b2c (b2 : FVec F S128 .f32) : FVec F S128x1 .bf16 :=
  shapeCast S128x1 (truncf .bf16 b2 bitsLt_bf16_f32) shapeCasts_S128_S128x1

/-- The third layer's weights, transposed. -/
def w3t (W3 : FVec F S128x5 .f32) : FVec F S5x128 .bf16 :=
  truncf .bf16 (transpose S5x128 [1, 0] W3 transposes_S128x5_S5x128_1_0) bitsLt_bf16_f32

/-- The third layer's bias as a column. -/
def b3c (b3 : FVec F S5 .f32) : FVec F S5x1 .f32 := shapeCast S5x1 b3 shapeCasts_S5_S5x1

/-- The kernel's result, five rows of 100000, transposed into 100000 rows of five. -/
def outT (o : FVec F S5x100000 .f32) : FVec F S100000x5 .f32 :=
  transpose S100000x5 [1, 0] o transposes_S5x100000_S100000x5_1_0

end Cert.KernelIdeal.Opd

end
-- ==== Proof.IdealData.lean ====
/-
  The idealized kernel program around its one region: what the host operations before the region leave in the
  arrays the kernel's windows read (the operands of Operands.lean, as functions of the arguments), that the
  arguments themselves are written by no host operation, and the proof data of the region — at every grid point
  each input window's staging buffer holds its block, and the output's holds the value the body stores, a function
  of those blocks. The input row and the output are cut into eight blocks of 12800 columns of which the last
  overhangs the arrays' 100000 columns: there the staging buffers hold, past the arrays' end, entries nothing names.
-/
import proofs.«137531_g64828236366229_cont_9to1_m_1379_10_alg».proof.Proof.Gen.KernelIdeal.Launch
import proofs.«137531_g64828236366229_cont_9to1_m_1379_10_alg».proof.Proof.Gen.KernelIdeal.Skeleton
import proofs.«137531_g64828236366229_cont_9to1_m_1379_10_alg».proof.Proof.Gen.KernelIdeal.Points
import proofs.«137531_g64828236366229_cont_9to1_m_1379_10_alg».proof.Proof.Operands
import Idealize.ShloMosaic.Lib.Pipeline.FrameBody
import Idealize.ShloMosaic.Lib.Pipeline.FrameSuffix
import Idealize.ShloMosaic.Lib.StableHlo.Run
import Idealize.ShloMosaic.Lib.Tactic

set_option maxRecDepth 16384

noncomputable section

namespace Cert.KernelIdeal.Run

open Cert.KernelIdeal Cert.KernelIdeal.Gen Cert.KernelIdeal.Opd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the kernel's region -/

/-- What core `c`'s buffers hold when the kernel's region is entered: the launch contents after the host
    operations that precede it. -/
abbrev E0 (c : Dev nD) : Valuation τ sig (Elt F) := StableHlo.after (List.flatten [hostOps0]) (fun b => m (c, b))
/-- The same at a TensorCore reference. -/
abbrev E (c : Dev nD) (b : Ref sig .tc) : Buf (Elt F) ((c : Thread nD τ).loc b) := E0 m c (Proc.devRef .tc b)

/-- No host operation allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- The program is its host operations, then the region, then the one transposition. -/
theorem main_around (𝒱₀ : Variants) :
    Pipeline.HMainK (Ix := Unit) (Name := ℕ) (U := UR sig nD τ) (Lvl := ℕ) cfgs 0 defs₀ 𝒱₀ m (main (F := F)) (E m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The transposition after the region touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp post_fresh) op hop
/-- and writes its own result, which is no array of the kernel's windows. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-- Argument 0 is written by no host operation: the region finds it, and the program leaves it, as launched. -/
theorem E_arg0 (c : Dev nD) : E m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg0 (dats : (p : Fin 1) → (c : Dev nD) → Dat τ (Elt F) Unit ℕ (UR sig nD τ) ℕ (cfgs p) c) (c : Dev nD) :
    Pipeline.afterTail₀ cfgs dats 0 (E0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg0 (by exact (by decide : ∀ w, Pipeline.arrRef spec0 w ≠ main_arg0))]
  exact E_arg0 m c

/-- Argument 1 is written by no host operation: the region finds it, and the program leaves it, as launched. -/
theorem E_arg1 (c : Dev nD) : E m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg1 (dats : (p : Fin 1) → (c : Dev nD) → Dat τ (Elt F) Unit ℕ (UR sig nD τ) ℕ (cfgs p) c) (c : Dev nD) :
    Pipeline.afterTail₀ cfgs dats 0 (E0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg1 (by exact (by decide : ∀ w, Pipeline.arrRef spec0 w ≠ main_arg1))]
  exact E_arg1 m c

/-- Argument 2 is written by no host operation: the region finds it, and the program leaves it, as launched. -/
theorem E_arg2 (c : Dev nD) : E m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg2 (dats : (p : Fin 1) → (c : Dev nD) → Dat τ (Elt F) Unit ℕ (UR sig nD τ) ℕ (cfgs p) c) (c : Dev nD) :
    Pipeline.afterTail₀ cfgs dats 0 (E0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg2 (by exact (by decide : ∀ w, Pipeline.arrRef spec0 w ≠ main_arg2))]
  exact E_arg2 m c

/-- Argument 3 is written by no host operation: the region finds it, and the program leaves it, as launched. -/
theorem E_arg3 (c : Dev nD) : E m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg3 (dats : (p : Fin 1) → (c : Dev nD) → Dat τ (Elt F) Unit ℕ (UR sig nD τ) ℕ (cfgs p) c) (c : Dev nD) :
    Pipeline.afterTail₀ cfgs dats 0 (E0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg3 (by exact (by decide : ∀ w, Pipeline.arrRef spec0 w ≠ main_arg3))]
  exact E_arg3 m c

/-- Argument 4 is written by no host operation: the region finds it, and the program leaves it, as launched. -/
theorem E_arg4 (c : Dev nD) : E m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg4 (dats : (p : Fin 1) → (c : Dev nD) → Dat τ (Elt F) Unit ℕ (UR sig nD τ) ℕ (cfgs p) c) (c : Dev nD) :
    Pipeline.afterTail₀ cfgs dats 0 (E0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg4 (by exact (by decide : ∀ w, Pipeline.arrRef spec0 w ≠ main_arg4))]
  exact E_arg4 m c

/-- Argument 5 is written by no host operation: the region finds it, and the program leaves it, as launched. -/
theorem E_arg5 (c : Dev nD) : E m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg5 (dats : (p : Fin 1) → (c : Dev nD) → Dat τ (Elt F) Unit ℕ (UR sig nD τ) ℕ (cfgs p) c) (c : Dev nD) :
    Pipeline.afterTail₀ cfgs dats 0 (E0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg5 (by exact (by decide : ∀ w, Pipeline.arrRef spec0 w ≠ main_arg5))]
  exact E_arg5 m c

/-- Argument 6 is written by no host operation: the region finds it, and the program leaves it, as launched. -/
theorem E_arg6 (c : Dev nD) : E m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.unary_writes, StableHlo.binary_writes, StableHlo.reshape_writes, StableHlo.nary_writes, Finset.mem_singleton]
    repeat' apply And.intro
    all_goals exact StableHlo.devRef_ne_of_ne (by decide)))
theorem T_arg6 (dats : (p : Fin 1) → (c : Dev nD) → Dat τ (Elt F) Unit ℕ (UR sig nD τ) ℕ (cfgs p) c) (c : Dev nD) :
    Pipeline.afterTail₀ cfgs dats 0 (E0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne (by decide))),
    Pipeline.withArrays_of_ne _ c (E0 m c) _ main_arg6 (by exact (by decide : ∀ w, Pipeline.arrRef spec0 w ≠ main_arg6))]
  exact E_arg6 m c

/-! ## The windows' arrays as the region finds them -/

/-- The five-column matrix is the concatenation of the five columns as the valuation holds them. -/
theorem cat_result (G : Valuation τ sig (Elt F)) (hxs hy) :
    (StableHlo.nary ![main_v10, main_v11, main_v12, main_v13, main_v14] main_v15
        (fun u => concatenate S128x5 1 [⟨S128x1, u 0⟩, ⟨S128x1, u 1⟩, ⟨S128x1, u 2⟩, ⟨S128x1, u 3⟩, ⟨S128x1, u 4⟩]
          concatenates_S128x1_S128x1_S128x1_S128x1_S128x1_S128x5_d1) hxs hy : HloOp τ sig (Elt F)).result G (Proc.devRef .tc main_v15)
      = concatenate S128x5 1 [⟨S128x1, G (Proc.devRef .tc main_v10)⟩, ⟨S128x1, G (Proc.devRef .tc main_v11)⟩,
          ⟨S128x1, G (Proc.devRef .tc main_v12)⟩, ⟨S128x1, G (Proc.devRef .tc main_v13)⟩, ⟨S128x1, G (Proc.devRef .tc main_v14)⟩]
          concatenates_S128x1_S128x1_S128x1_S128x1_S128x1_S128x5_d1 :=
  StableHlo.nary_result _ _ _ hxs hy G

theorem E_row (c : Dev nD) : E m c main_v0 = rowT (m ((c : Thread nD τ).loc main_arg0)) := by
  show StableHlo.after hostOps0 (fun b => m (c, b)) (Proc.devRef .tc main_v0) = _
  after_results; rfl
theorem E_a1 (c : Dev nD) : E m c main_v15 = a1 (m ((c : Thread nD τ).loc main_arg1)) (m ((c : Thread nD τ).loc main_arg2)) := by
  show StableHlo.after hostOps0 (fun b => m (c, b)) (Proc.devRef .tc main_v15) = _
  simp only [StableHlo.after_cons, StableHlo.after_nil]
  repeat (first | (rw [StableHlo.unary_result_ne]; rotate_left; decide) | (rw [StableHlo.reshape_result_ne]; rotate_left; decide))
  rw [cat_result]
  repeat (first
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide))
  rfl
theorem E_w2t (c : Dev nD) : E m c main_v17 = w2t (m ((c : Thread nD τ).loc main_arg3)) := by
  show StableHlo.after hostOps0 (fun b => m (c, b)) (Proc.devRef .tc main_v17) = _
  after_results; rfl
theorem E_b2c (c : Dev nD) : E m c main_v19 = b2c (m ((c : Thread nD τ).loc main_arg4)) := by
  show StableHlo.after hostOps0 (fun b => m (c, b)) (Proc.devRef .tc main_v19) = _
  after_results; rfl
theorem E_w3t (c : Dev nD) : E m c main_v21 = w3t (m ((c : Thread nD τ).loc main_arg5)) := by
  show StableHlo.after hostOps0 (fun b => m (c, b)) (Proc.devRef .tc main_v21) = _
  after_results; rfl
theorem E_b3c (c : Dev nD) : E m c main_v22 = b3c (m ((c : Thread nD τ).loc main_arg6)) := by
  show StableHlo.after hostOps0 (fun b => m (c, b)) (Proc.devRef .tc main_v22) = _
  after_results; rfl

/-! ## The blocks the kernel reads, and what it stores -/

/-- Window `w`'s block at point `t`, read off its array as the region finds it (for the input row and the output,
    whose last block overhangs the array, the part inside the array). -/
def blk (c : Dev nD) (w : Fin cfg0.W) (t : Fin cfg0.N) :
    ((cfg0.win w).xblock (cfg0.grid.coords t)).Idx → Elt F (cfg0.win w).elt :=
  ((cfg0.win w).blk t).view.read (Elt F) (E m c (Pipeline.arrRef spec0 w))

/-- The input row's staging buffer once point `t`'s fetch has landed: the block where it lies inside the array, and
    `d` on the entries past the array's end. -/
def rowBlk (c : Dev nD) (t : Fin cfg0.N) (d : S1x12800.Idx → Elt F .f32) : S1x12800.Idx → Elt F .f32 :=
  win0_0.fill (grid0.coords t) d (blk m c 0 t)

/-- The value the body stores at point `t`, when the input row's buffer holds `d` past the array's end. -/
def outBlk (c : Dev nD) (t : Fin cfg0.N) (d : S1x12800.Idx → Elt F .f32) : S5x12800.Idx → Elt F .f32 :=
  k0_pay1 (rowBlk m c t d) (blk m c 1 t) (blk m c 2 t) (blk m c 3 t) (blk m c 4 t) (blk m c 5 t)

/-- A filler for the entries nothing reads. -/
def zf : S1x12800.Idx → Elt F .f32 := fun _ => Scalar.ofBits .f32 0#32

/-- The proof data of the one pipeline on core `c`: the arrays as the region finds them; after the body at point `t`
    each input's buffer at its block and the output's at the stored value. -/
def dats (_ : Fin 1) (c : Dev nD) : Dat τ (Elt F) Unit ℕ (UR sig nD τ) ℕ cfg0 c where
  A w := E m c (Pipeline.arrRef spec0 w)
  after w t := match w with
    | ⟨0, _⟩ => rowBlk m c t zf
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => outBlk m c t zf
  Φ _ := Pipeline.ΦA spec0 c
  q _ := fullShare
  owed _ := 0

theorem A_eq (c : Dev nD) (w : Fin cfg0.W) : (dats m 0 c).A w = E m c (Pipeline.arrRef spec0 w) := by
  dsimp only [dats]

theorem after_0 (c : Dev nD) (t : Fin cfg0.N) : (dats m 0 c).after 0 t = rowBlk m c t zf := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = outBlk m c t zf := by dsimp only [dats]

/-- The input row is fetched at every point: its buffer holds the block, and `d` past the array's end. -/
theorem before_0 (c : Dev nD) (t : Fin cfg0.N) (d) : (dats m 0 c).before 0 t d = rowBlk m c t d := by
  unfold Dat.before; rw [if_pos (fetch0_0 t)]; rfl

/-- The five small operands are fetched once and only read: their buffers hold their blocks at every point. -/
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; unfold Dat.blockOf blk; rw [A_eq]) t d).trans
    (by unfold Dat.fetched Dat.blockOf blk; rw [A_eq]; rfl)
theorem before_4 (c : Dev nD) (t : Fin cfg0.N) (d) : (dats m 0 c).before 4 t d = blk m c 4 t :=
  ((dats m 0 c).before_in_eq_fetched 4 rfl (fun _ => rfl) (fun _ _ _ => rfl) (fun t => by rw [after_4]; unfold Dat.blockOf blk; rw [A_eq]) t d).trans
    (by unfold Dat.fetched Dat.blockOf blk; rw [A_eq]; rfl)
theorem before_5 (c : Dev nD) (t : Fin cfg0.N) (d) : (dats m 0 c).before 5 t d = blk m c 5 t :=
  ((dats m 0 c).before_in_eq_fetched 5 rfl (fun _ => rfl) (fun _ _ _ => rfl) (fun t => by rw [after_5]; unfold Dat.blockOf blk; rw [A_eq]) t d).trans
    (by unfold Dat.fetched Dat.blockOf blk; rw [A_eq]; rfl)

/-- The output is written back at every point: its buffer comes to the body at contents nothing names. -/
theorem before_6 (c : Dev nD) (t : Fin cfg0.N) (d) : (dats m 0 c).before 6 t d = d :=
  (dats m 0 c).before_out_reset 6 rfl t (by
    by_cases h : t.val = 0
    · exact .inl h
    · exact .inr ⟨h, flush0_6 _⟩) d

end Cert.KernelIdeal.Run

end
-- ==== Proof.Spec.lean ====
/-
  The function both programs compute, over the extended reals: a three-layer perceptron applied to each of the
  100000 scalar inputs on its own. For an input value `x`, weights `W1 : 1 × 128`, `W2 : 128 × 128`, `W3 : 128 × 5` and
  biases `b1`, `b2`, `b3`:
    h1 j = max (x · W1[0, j] + b1[j]) 0,
    h2 j = max (Σ k, h1 k · W2[k, j] + b2[j]) 0,
    o  e = Σ k, h2 k · W3[k, e] + b3[e],
  and the result array holds `o e` of `x = t[p]` at row `p`, column `e`. No program is imported here: the two
  runs are each shown to end at `out`.
-/
import Idealize.ShloMosaic.PureOps.Ideal
import Idealize.ShloMosaic.Lib.ValueIdx

noncomputable section

open scoped BigOperators

namespace Cert.Mlp

open Idealize.ShloMosaic Idealize.ShloMosaic.ValueIdx

/-- First hidden layer of one input value `x`, at unit `j`. -/
def hid1 (x : EReal) (W1 : (⟨2, ![1, 128]⟩ : Shape).Idx → EReal) (b1 : (⟨1, ![128]⟩ : Shape).Idx → EReal) (j : Fin 128) : EReal :=
  max (x * W1 (ix2 (0 : Fin 1) j) + b1 (ix1 j)) 0

/-- Second hidden layer of one input value, at unit `j`. -/
def hid2 (x : EReal) (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal) (j : Fin 128) : EReal :=
  max ((∑ k : Fin 128, hid1 x W1 b1 k * W2 (ix2 k j)) + b2 (ix1 j)) 0

/-- The output layer of one input value, at component `e`. -/
def outV (x : EReal) (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 5]⟩ : Shape).Idx → EReal) (b3 : (⟨1, ![5]⟩ : Shape).Idx → EReal) (e : Fin 5) : EReal :=
  (∑ k : Fin 128, hid2 x W1 b1 W2 b2 k * W3 (ix2 k e)) + b3 (ix1 e)

/-- The whole result array: row `p` is the perceptron of `t[p]`. -/
def out (t : (⟨1, ![100000]⟩ : Shape).Idx → EReal) (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 5]⟩ : Shape).Idx → EReal) (b3 : (⟨1, ![5]⟩ : Shape).Idx → EReal) :
    (⟨2, ![100000, 5]⟩ : Shape).Idx → EReal :=
  fun i => outV (t (ix1 (i 0))) W1 b1 W2 b2 W3 b3 (i 1)

theorem out_apply (t : (⟨1, ![100000]⟩ : Shape).Idx → EReal) (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 5]⟩ : Shape).Idx → EReal) (b3 : (⟨1, ![5]⟩ : Shape).Idx → EReal) (p : Fin 100000) (e : Fin 5) :
    out t W1 b1 W2 b2 W3 b3 (ix2 p e) = outV (t (ix1 p)) W1 b1 W2 b2 W3 b3 e := rfl

end Cert.Mlp

end
-- ==== Proof.KernelValue.lean ====
/-
  The kernel's stored block, read at one entry. Column q of the 5 × 12800 block depends on the input row's entry q
  alone: the 5-row operand built from it is (x, x − x, x, 1, 1), the first product with the five-column matrix
  (w, w, w − w, b, b − b) is w·x + w·(x − x) + (w − w)·x + b + (b − b), which for real x, w, b is w·x + b; the two later
  products are sums over the 128 hidden units of transposed weights, so they are the specification's sums with the
  factors in the other order.
-/
import proofs.«137531_g64828236366229_cont_9to1_m_1379_10_alg».proof.Proof.Gen.KernelIdeal.Skeleton
import proofs.«137531_g64828236366229_cont_9to1_m_1379_10_alg».proof.Proof.Operands
import proofs.«137531_g64828236366229_cont_9to1_m_1379_10_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Val

open Cert.KernelIdeal Cert.KernelIdeal.Gen Cert.KernelIdeal.Opd
open Idealize.ShloMosaic Idealize.ShloMosaic.ValueIdx

/-- The five-row operand of the first product: the input row, its remainder after itself, the input row again, and two rows of ones. -/
def rows5 (v0 : Vec Ideal S1x12800 .f32) : FVec Ideal S5x12800 .bf16 :=
  concatenate S5x12800 0
    [⟨S1x12800, (truncf .bf16 (shapeCast S1x12800 v0 shapeCasts_S1x12800_S1x12800 : FVec Ideal S1x12800 .f32) bitsLt_bf16_f32 : FVec Ideal S1x12800 .bf16)⟩,
     ⟨S1x12800, (truncf .bf16 (subf (shapeCast S1x12800 v0 shapeCasts_S1x12800_S1x12800 : FVec Ideal S1x12800 .f32)
        (shapeCast S1x12800 v0 shapeCasts_S1x12800_S1x12800 : FVec Ideal S1x12800 .f32)) bitsLt_bf16_f32 : FVec Ideal S1x12800 .bf16)⟩,
     ⟨S1x12800, (truncf .bf16 (shapeCast S1x12800 v0 shapeCasts_S1x12800_S1x12800 : FVec Ideal S1x12800 .f32) bitsLt_bf16_f32 : FVec Ideal S1x12800 .bf16)⟩,
     ⟨S1x12800, (broadcast S1x12800 (Scalar.ofBits (F := Ideal) .bf16 0x3F80#16) : FVec Ideal S1x12800 .bf16)⟩,
     ⟨S1x12800, (broadcast S1x12800 (Scalar.ofBits (F := Ideal) .bf16 0x3F80#16) : FVec Ideal S1x12800 .bf16)⟩]
    concatenates_S1x12800_S1x12800_S1x12800_S1x12800_S1x12800_S5x12800_d0

/-- The first hidden layer's block. -/
def lay1 (v0 : Vec Ideal S1x12800 .f32) (v8 : Vec Ideal S128x5 .bf16) : FVec Ideal S128x12800 .bf16 :=
  maximumf (truncf .bf16 (matmul dot_S128x5_S5x12800_S128x12800_1_0_0_1_n_n none
      (shapeCast S128x5 v8 shapeCasts_S128x5_S128x5 : FVec Ideal S128x5 .bf16) (rows5 v0)
      (constant (F := Ideal) S128x12800 .f32 0x00000000#32)) bitsLt_bf16_f32)
    (broadcast S128x12800 (Scalar.ofBits (F := Ideal) .bf16 0x0000#16))

/-- The second hidden layer's block. -/
def lay2 (v0 : Vec Ideal S1x12800 .f32) (v8 : Vec Ideal S128x5 .bf16) (v14 : Vec Ideal S128x128 .bf16) (v18 : Vec Ideal S128x1 .bf16) :
    FVec Ideal S128x12800 .bf16 :=
  maximumf (addf (truncf .bf16 (matmul dot_S128x128_S128x12800_S128x12800_1_0_0_1_n_n none
      (shapeCast S128x128 v14 shapeCasts_S128x128_S128x128 : FVec Ideal S128x128 .bf16) (lay1 v0 v8)
      (constant (F := Ideal) S128x12800 .f32 0x00000000#32)) bitsLt_bf16_f32)
      (broadcastTo S128x12800 (shapeCast S128x1 v18 shapeCasts_S128x1_S128x1 : FVec Ideal S128x1 .bf16) broadcasts_S128x1_S128x12800))
    (broadcast S128x12800 (Scalar.ofBits (F := Ideal) .bf16 0x0000#16))

/-- The stored block is the third product over the second layer's block, plus the last bias column spread along the row. -/
theorem pay_eq (v0 : Vec Ideal S1x12800 .f32) (v8 : Vec Ideal S128x5 .bf16) (v14 : Vec Ideal S128x128 .bf16)
    (v18 : Vec Ideal S128x1 .bf16) (v24 : Vec Ideal S5x128 .bf16) (v27 : Vec Ideal S5x1 .f32) :
    k0_pay1 (F := Ideal) v0 v8 v14 v18 v24 v27
      = addf (matmul dot_S5x128_S128x12800_S5x12800_1_0_0_1_n_n none
          (shapeCast S5x128 v24 shapeCasts_S5x128_S5x128 : FVec Ideal S5x128 .bf16) (lay2 v0 v8 v14 v18)
          (constant (F := Ideal) S5x12800 .f32 0x00000000#32))
        (broadcastTo S5x12800 (shapeCast S5x1 v27 shapeCasts_S5x1_S5x1 : FVec Ideal S5x1 .f32) broadcasts_S5x1_S5x12800) := rfl

/-- The five entries a column of the first product's right operand holds, for an input entry `x`. -/
def rowv (x : EReal) : Fin 5 → EReal := ![x, x - x, x, 1, 1]

/-- The five-row operand at row `k`, column `q`: a function of the input row's entry `q` alone. -/
theorem rows5_apply (v0 : Vec Ideal S1x12800 .f32) (k : Fin 5) (q : Fin 12800) :
    rows5 v0 (ix2 k q) = rowv (v0 (ix2 (0 : Fin 1) q)) k := by
  have hsc : (shapeCast S1x12800 v0 shapeCasts_S1x12800_S1x12800 : FVec Ideal S1x12800 .f32) = v0 :=
    shapeCast_self v0 shapeCasts_S1x12800_S1x12800
  unfold rows5
  rw [hsc]
  have hi : ∀ (k : Fin 5) (b : Fin S1x12800.rank), b.cast (rfl : S1x12800.rank = S5x12800.rank) ≠ (0 : Fin S5x12800.rank) →
      ((ix2 (0 : Fin 1) q : S1x12800.Idx) b).val = ((ix2 k q : S5x12800.Idx) (b.cast rfl)).val := fun k b hb =>
    match b, hb with
    | ⟨0, _⟩, hb => absurd rfl hb
    | ⟨1, _⟩, _ => rfl
  match k with
  | ⟨0, h0⟩ =>
    exact concatenate_apply_piece (0 : Fin S5x12800.rank) _ _ (ix2 (⟨0, h0⟩ : Fin 5) q) 0 (by simp) S1x12800
      (truncf .bf16 (v0 : FVec Ideal S1x12800 .f32) bitsLt_bf16_f32 : FVec Ideal S1x12800 .bf16) rfl rfl 0 rfl (ix2 (0 : Fin 1) q) (hi _) rfl
  | ⟨1, h1⟩ =>
    exact concatenate_apply_piece (0 : Fin S5x12800.rank) _ _ (ix2 (⟨1, h1⟩ : Fin 5) q) 1 (by simp) S1x12800
      (truncf .bf16 (subf (v0 : FVec Ideal S1x12800 .f32) v0) bitsLt_bf16_f32 : FVec Ideal S1x12800 .bf16) rfl rfl 1 rfl (ix2 (0 : Fin 1) q) (hi _) rfl
  | ⟨2, h2⟩ =>
    exact concatenate_apply_piece (0 : Fin S5x12800.rank) _ _ (ix2 (⟨2, h2⟩ : Fin 5) q) 2 (by simp) S1x12800
      (truncf .bf16 (v0 : FVec Ideal S1x12800 .f32) bitsLt_bf16_f32 : FVec Ideal S1x12800 .bf16) rfl rfl 2 rfl (ix2 (0 : Fin 1) q) (hi _) rfl
  | ⟨3, h3⟩ =>
    refine (concatenate_apply_piece (0 : Fin S5x12800.rank) _ _ (ix2 (⟨3, h3⟩ : Fin 5) q) 3 (by simp) S1x12800
      (broadcast S1x12800 (Scalar.ofBits (F := Ideal) .bf16 0x3F80#16) : FVec Ideal S1x12800 .bf16) rfl rfl 3 rfl (ix2 (0 : Fin 1) q) (hi _) rfl).trans ?_
    exact Ideal.ofBits_one_bf16
  | ⟨4, h4⟩ =>
    refine (concatenate_apply_piece (0 : Fin S5x12800.rank) _ _ (ix2 (⟨4, h4⟩ : Fin 5) q) 4 (by simp) S1x12800
      (broadcast S1x12800 (Scalar.ofBits (F := Ideal) .bf16 0x3F80#16) : FVec Ideal S1x12800 .bf16) rfl rfl 4 rfl (ix2 (0 : Fin 1) q) (hi _) rfl).trans ?_
    exact Ideal.ofBits_one_bf16

theorem lhs_m1_0 (i : S128x12800.Idx) (c : dot_S128x5_S5x12800_S128x12800_1_0_0_1_n_n.contr.Idx) :
    (dot_S128x5_S5x12800_S128x12800_1_0_0_1_n_n.lhsIdx i c 0).val = (i 0).val := by
  unfold DotDims.lhsIdx
  rw [dif_neg (show ¬(0 : Fin S128x5.rank) ∈ dot_S128x5_S5x12800_S128x12800_1_0_0_1_n_n.lhsBatch by decide), dif_pos (show (0 : Fin S128x5.rank) ∈ dot_S128x5_S5x12800_S128x12800_1_0_0_1_n_n.lhsNonContracting by decide)]
  rfl
theorem lhs_m1_1 (i : S128x12800.Idx) (c : dot_S128x5_S5x12800_S128x12800_1_0_0_1_n_n.contr.Idx) :
    (dot_S128x5_S5x12800_S128x12800_1_0_0_1_n_n.lhsIdx i c 1).val = (c ⟨0, by decide⟩).val :=
  dot_S128x5_S5x12800_S128x12800_1_0_0_1_n_n.lhsIdx_val_of_single rfl i c
theorem rhs_m1_0 (i : S128x12800.Idx) (c : dot_S128x5_S5x12800_S128x12800_1_0_0_1_n_n.contr.Idx) :
    (dot_S128x5_S5x12800_S128x12800_1_0_0_1_n_n.rhsIdx i c 0).val = (c ⟨0, by decide⟩).val :=
  dot_S128x5_S5x12800_S128x12800_1_0_0_1_n_n.rhsIdx_val_of_single rfl i c
theorem rhs_m1_1 (i : S128x12800.Idx) (c : dot_S128x5_S5x12800_S128x12800_1_0_0_1_n_n.contr.Idx) :
    (dot_S128x5_S5x12800_S128x12800_1_0_0_1_n_n.rhsIdx i c 1).val = (i 1).val := by
  unfold DotDims.rhsIdx
  rw [dif_neg (show ¬(1 : Fin S5x12800.rank) ∈ dot_S128x5_S5x12800_S128x12800_1_0_0_1_n_n.rhsBatch by decide), dif_pos (show (1 : Fin S5x12800.rank) ∈ dot_S128x5_S5x12800_S128x12800_1_0_0_1_n_n.rhsNonContracting by decide)]
  rfl

/-- The product into a zero accumulator at row `j`, column `q`: the sum over the 5 contracted positions of the left operand's row `j` times the right operand's column `q`. -/
theorem mm_m1 (A : FVec Ideal S128x5 .bf16) (B : FVec Ideal S5x12800 .bf16) (j : Fin 128) (q : Fin 12800) :
    (matmul dot_S128x5_S5x12800_S128x12800_1_0_0_1_n_n none A B (constant (F := Ideal) S128x12800 .f32 0x00000000#32) : FVec Ideal S128x12800 .f32) (ix2 j q)
      = ∑ k : Fin 5, A (ix2 j k) * B (ix2 k q) := by
  simp only [matmul]
  rw [Ideal.matmul_constant_zero_apply, ← Equiv.sum_comp (contrEquiv1 dot_S128x5_S5x12800_S128x12800_1_0_0_1_n_n 5 rfl rfl).symm]
  refine Finset.sum_congr rfl fun k _ => ?_
  have hk := contrEquiv1_symm_val dot_S128x5_S5x12800_S128x12800_1_0_0_1_n_n 5 rfl rfl k
  have el : dot_S128x5_S5x12800_S128x12800_1_0_0_1_n_n.lhsIdx (ix2 j q) ((contrEquiv1 dot_S128x5_S5x12800_S128x12800_1_0_0_1_n_n 5 rfl rfl).symm k) = ix2 j k := funext fun a => Fin.ext (by
    match a with
    | ⟨0, _⟩ => exact lhs_m1_0 _ _
    | ⟨1, _⟩ => exact (lhs_m1_1 _ _).trans hk)
  have er : dot_S128x5_S5x12800_S128x12800_1_0_0_1_n_n.rhsIdx (ix2 j q) ((contrEquiv1 dot_S128x5_S5x12800_S128x12800_1_0_0_1_n_n 5 rfl rfl).symm k) = ix2 k q := funext fun a => Fin.ext (by
    match a with
    | ⟨0, _⟩ => exact (rhs_m1_0 _ _).trans hk
    | ⟨1, _⟩ => exact rhs_m1_1 _ _)
  rw [el, er]

theorem lhs_m2_0 (i : S128x12800.Idx) (c : dot_S128x128_S128x12800_S128x12800_1_0_0_1_n_n.contr.Idx) :
    (dot_S128x128_S128x12800_S128x12800_1_0_0_1_n_n.lhsIdx i c 0).val = (i 0).val := by
  unfold DotDims.lhsIdx
  rw [dif_neg (show ¬(0 : Fin S128x128.rank) ∈ dot_S128x128_S128x12800_S128x12800_1_0_0_1_n_n.lhsBatch by decide), dif_pos (show (0 : Fin S128x128.rank) ∈ dot_S128x128_S128x12800_S128x12800_1_0_0_1_n_n.lhsNonContracting by decide)]
  rfl
theorem lhs_m2_1 (i : S128x12800.Idx) (c : dot_S128x128_S128x12800_S128x12800_1_0_0_1_n_n.contr.Idx) :
    (dot_S128x128_S128x12800_S128x12800_1_0_0_1_n_n.lhsIdx i c 1).val = (c ⟨0, by decide⟩).val :=
  dot_S128x128_S128x12800_S128x12800_1_0_0_1_n_n.lhsIdx_val_of_single rfl i c
theorem rhs_m2_0 (i : S128x12800.Idx) (c : dot_S128x128_S128x12800_S128x12800_1_0_0_1_n_n.contr.Idx) :
    (dot_S128x128_S128x12800_S128x12800_1_0_0_1_n_n.rhsIdx i c 0).val = (c ⟨0, by decide⟩).val :=
  dot_S128x128_S128x12800_S128x12800_1_0_0_1_n_n.rhsIdx_val_of_single rfl i c
theorem rhs_m2_1 (i : S128x12800.Idx) (c : dot_S128x128_S128x12800_S128x12800_1_0_0_1_n_n.contr.Idx) :
    (dot_S128x128_S128x12800_S128x12800_1_0_0_1_n_n.rhsIdx i c 1).val = (i 1).val := by
  unfold DotDims.rhsIdx
  rw [dif_neg (show ¬(1 : Fin S128x12800.rank) ∈ dot_S128x128_S128x12800_S128x12800_1_0_0_1_n_n.rhsBatch by decide), dif_pos (show (1 : Fin S128x12800.rank) ∈ dot_S128x128_S128x12800_S128x12800_1_0_0_1_n_n.rhsNonContracting by decide)]
  rfl

/-- The product into a zero accumulator at row `j`, column `q`: the sum over the 128 contracted positions of the left operand's row `j` times the right operand's column `q`. -/
theorem mm_m2 (A : FVec Ideal S128x128 .bf16) (B : FVec Ideal S128x12800 .bf16) (j : Fin 128) (q : Fin 12800) :
    (matmul dot_S128x128_S128x12800_S128x12800_1_0_0_1_n_n none A B (constant (F := Ideal) S128x12800 .f32 0x00000000#32) : FVec Ideal S128x12800 .f32) (ix2 j q)
      = ∑ k : Fin 128, A (ix2 j k) * B (ix2 k q) := by
  simp only [matmul]
  rw [Ideal.matmul_constant_zero_apply, ← Equiv.sum_comp (contrEquiv1 dot_S128x128_S128x12800_S128x12800_1_0_0_1_n_n 128 rfl rfl).symm]
  refine Finset.sum_congr rfl fun k _ => ?_
  have hk := contrEquiv1_symm_val dot_S128x128_S128x12800_S128x12800_1_0_0_1_n_n 128 rfl rfl k
  have el : dot_S128x128_S128x12800_S128x12800_1_0_0_1_n_n.lhsIdx (ix2 j q) ((contrEquiv1 dot_S128x128_S128x12800_S128x12800_1_0_0_1_n_n 128 rfl rfl).symm k) = ix2 j k := funext fun a => Fin.ext (by
    match a with
    | ⟨0, _⟩ => exact lhs_m2_0 _ _
    | ⟨1, _⟩ => exact (lhs_m2_1 _ _).trans hk)
  have er : dot_S128x128_S128x12800_S128x12800_1_0_0_1_n_n.rhsIdx (ix2 j q) ((contrEquiv1 dot_S128x128_S128x12800_S128x12800_1_0_0_1_n_n 128 rfl rfl).symm k) = ix2 k q := funext fun a => Fin.ext (by
    match a with
    | ⟨0, _⟩ => exact (rhs_m2_0 _ _).trans hk
    | ⟨1, _⟩ => exact rhs_m2_1 _ _)
  rw [el, er]

theorem lhs_m3_0 (i : S5x12800.Idx) (c : dot_S5x128_S128x12800_S5x12800_1_0_0_1_n_n.contr.Idx) :
    (dot_S5x128_S128x12800_S5x12800_1_0_0_1_n_n.lhsIdx i c 0).val = (i 0).val := by
  unfold DotDims.lhsIdx
  rw [dif_neg (show ¬(0 : Fin S5x128.rank) ∈ dot_S5x128_S128x12800_S5x12800_1_0_0_1_n_n.lhsBatch by decide), dif_pos (show (0 : Fin S5x128.rank) ∈ dot_S5x128_S128x12800_S5x12800_1_0_0_1_n_n.lhsNonContracting by decide)]
  rfl
theorem lhs_m3_1 (i : S5x12800.Idx) (c : dot_S5x128_S128x12800_S5x12800_1_0_0_1_n_n.contr.Idx) :
    (dot_S5x128_S128x12800_S5x12800_1_0_0_1_n_n.lhsIdx i c 1).val = (c ⟨0, by decide⟩).val :=
  dot_S5x128_S128x12800_S5x12800_1_0_0_1_n_n.lhsIdx_val_of_single rfl i c
theorem rhs_m3_0 (i : S5x12800.Idx) (c : dot_S5x128_S128x12800_S5x12800_1_0_0_1_n_n.contr.Idx) :
    (dot_S5x128_S128x12800_S5x12800_1_0_0_1_n_n.rhsIdx i c 0).val = (c ⟨0, by decide⟩).val :=
  dot_S5x128_S128x12800_S5x12800_1_0_0_1_n_n.rhsIdx_val_of_single rfl i c
theorem rhs_m3_1 (i : S5x12800.Idx) (c : dot_S5x128_S128x12800_S5x12800_1_0_0_1_n_n.contr.Idx) :
    (dot_S5x128_S128x12800_S5x12800_1_0_0_1_n_n.rhsIdx i c 1).val = (i 1).val := by
  unfold DotDims.rhsIdx
  rw [dif_neg (show ¬(1 : Fin S128x12800.rank) ∈ dot_S5x128_S128x12800_S5x12800_1_0_0_1_n_n.rhsBatch by decide), dif_pos (show (1 : Fin S128x12800.rank) ∈ dot_S5x128_S128x12800_S5x12800_1_0_0_1_n_n.rhsNonContracting by decide)]
  rfl

/-- The product into a zero accumulator at row `j`, column `q`: the sum over the 128 contracted positions of the left operand's row `j` times the right operand's column `q`. -/
theorem mm_m3 (A : FVec Ideal S5x128 .bf16) (B : FVec Ideal S128x12800 .bf16) (j : Fin 5) (q : Fin 12800) :
    (matmul dot_S5x128_S128x12800_S5x12800_1_0_0_1_n_n none A B (constant (F := Ideal) S5x12800 .f32 0x00000000#32) : FVec Ideal S5x12800 .f32) (ix2 j q)
      = ∑ k : Fin 128, A (ix2 j k) * B (ix2 k q) := by
  simp only [matmul]
  rw [Ideal.matmul_constant_zero_apply, ← Equiv.sum_comp (contrEquiv1 dot_S5x128_S128x12800_S5x12800_1_0_0_1_n_n 128 rfl rfl).symm]
  refine Finset.sum_congr rfl fun k _ => ?_
  have hk := contrEquiv1_symm_val dot_S5x128_S128x12800_S5x12800_1_0_0_1_n_n 128 rfl rfl k
  have el : dot_S5x128_S128x12800_S5x12800_1_0_0_1_n_n.lhsIdx (ix2 j q) ((contrEquiv1 dot_S5x128_S128x12800_S5x12800_1_0_0_1_n_n 128 rfl rfl).symm k) = ix2 j k := funext fun a => Fin.ext (by
    match a with
    | ⟨0, _⟩ => exact lhs_m3_0 _ _
    | ⟨1, _⟩ => exact (lhs_m3_1 _ _).trans hk)
  have er : dot_S5x128_S128x12800_S5x12800_1_0_0_1_n_n.rhsIdx (ix2 j q) ((contrEquiv1 dot_S5x128_S128x12800_S5x12800_1_0_0_1_n_n 128 rfl rfl).symm k) = ix2 k q := funext fun a => Fin.ext (by
    match a with
    | ⟨0, _⟩ => exact (rhs_m3_0 _ _).trans hk
    | ⟨1, _⟩ => exact rhs_m3_1 _ _)
  rw [el, er]

section Columns
variable {α : Type}

/-- A column `[a, 1]` spread along the rows of an `[a, b]` block reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

/-- A vector `[a]` placed along axis 0 of a column `[a, 1]` reads, at `(i, 0)`, the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) :
    broadcastInDim ⟨2, ![a, 1]⟩ ![0] h x (ix2 i (0 : Fin 1)) = x (ix1 i) := by
  refine broadcastInDim_apply _ h x (ix2 i (0 : Fin 1)) (ix1 i) fun ax => ?_
  match ax with
  | ⟨0, _⟩ =>
    show i.val = if a = 1 then 0 else i.val
    split
    · have := i.isLt; omega
    · rfl

end Columns

/-- First layer at unit `j`, for an input entry `x` and a five-column matrix: the five products' sum, cut at zero. -/
def h1 (x : EReal) (v8 : FVec Ideal S128x5 .bf16) (j : Fin 128) : EReal :=
  max (∑ k : Fin 5, v8 (ix2 j k) * rowv x k) 0

/-- Second layer at unit `j`: the sum over the first layer's units against row `j` of the matrix, plus the column's entry `j`, cut at zero. -/
def h2 (x : EReal) (v8 : FVec Ideal S128x5 .bf16) (v14 : FVec Ideal S128x128 .bf16) (v18 : FVec Ideal S128x1 .bf16) (j : Fin 128) : EReal :=
  max ((∑ k : Fin 128, v14 (ix2 j k) * h1 x v8 k) + v18 (ix2 j (0 : Fin 1))) 0

/-- Output component `e`: the sum over the second layer's units against row `e` of the matrix, plus the column's entry `e`. -/
def o3 (x : EReal) (v8 : FVec Ideal S128x5 .bf16) (v14 : FVec Ideal S128x128 .bf16) (v18 : FVec Ideal S128x1 .bf16)
    (v24 : FVec Ideal S5x128 .bf16) (v27 : FVec Ideal S5x1 .f32) (e : Fin 5) : EReal :=
  (∑ k : Fin 128, v24 (ix2 e k) * h2 x v8 v14 v18 k) + v27 (ix2 e (0 : Fin 1))

/-- The first layer's block at `(j, q)` is the first layer of the input row's entry `q`. -/
theorem lay1_apply (v0 : Vec Ideal S1x12800 .f32) (v8 : Vec Ideal S128x5 .bf16) (j : Fin 128) (q : Fin 12800) :
    lay1 v0 v8 (ix2 j q) = h1 (v0 (ix2 (0 : Fin 1) q)) v8 j := by
  unfold lay1 h1
  refine (congrArg₂ max (mm_m1 _ (rows5 v0) j q) Ideal.ofBits_zero_bf16).trans ?_
  rw [shapeCast_self]
  exact congrArg (max · 0) (Finset.sum_congr rfl fun k _ => by rw [rows5_apply])

/-- The second layer's block at `(j, q)` is the second layer of the input row's entry `q`. -/
theorem lay2_apply (v0 : Vec Ideal S1x12800 .f32) (v8 : Vec Ideal S128x5 .bf16) (v14 : Vec Ideal S128x128 .bf16)
    (v18 : Vec Ideal S128x1 .bf16) (j : Fin 128) (q : Fin 12800) :
    lay2 v0 v8 v14 v18 (ix2 j q) = h2 (v0 (ix2 (0 : Fin 1) q)) v8 v14 v18 j := by
  unfold lay2 h2
  refine (congrArg₂ max (congrArg₂ (· + ·) (mm_m2 _ (lay1 v0 v8) j q)
    (broadcastTo_a1_ab_apply _ broadcasts_S128x1_S128x12800 j q)) Ideal.ofBits_zero_bf16).trans ?_
  rw [shapeCast_self, shapeCast_self]
  exact congrArg (fun s => max (s + v18 (ix2 j (0 : Fin 1))) 0) (Finset.sum_congr rfl fun k _ => by rw [lay1_apply])

/-- The stored block at `(e, q)` is the output component `e` of the input row's entry `q`. -/
theorem pay_read (v0 : Vec Ideal S1x12800 .f32) (v8 : Vec Ideal S128x5 .bf16) (v14 : Vec Ideal S128x128 .bf16)
    (v18 : Vec Ideal S128x1 .bf16) (v24 : Vec Ideal S5x128 .bf16) (v27 : Vec Ideal S5x1 .f32) (e : Fin 5) (q : Fin 12800) :
    k0_pay1 (F := Ideal) v0 v8 v14 v18 v24 v27 (ix2 e q) = o3 (v0 (ix2 (0 : Fin 1) q)) v8 v14 v18 v24 v27 e := by
  rw [pay_eq]
  unfold o3
  refine (congrArg₂ (· + ·) (mm_m3 _ (lay2 v0 v8 v14 v18) e q)
    (broadcastTo_a1_ab_apply _ broadcasts_S5x1_S5x12800 e q)).trans ?_
  rw [shapeCast_self, shapeCast_self]
  exact congrArg (· + v27 (ix2 e (0 : Fin 1))) (Finset.sum_congr rfl fun k _ => by rw [lay2_apply])

/-- Column `q` of the stored block reads the input row at entry `q` only. -/
theorem pay_local (v0 v0' : Vec Ideal S1x12800 .f32) (v8 : Vec Ideal S128x5 .bf16) (v14 : Vec Ideal S128x128 .bf16)
    (v18 : Vec Ideal S128x1 .bf16) (v24 : Vec Ideal S5x128 .bf16) (v27 : Vec Ideal S5x1 .f32) (e : Fin 5) (q : Fin 12800)
    (h : v0 (ix2 (0 : Fin 1) q) = v0' (ix2 (0 : Fin 1) q)) :
    k0_pay1 (F := Ideal) v0 v8 v14 v18 v24 v27 (ix2 e q) = k0_pay1 (F := Ideal) v0' v8 v14 v18 v24 v27 (ix2 e q) := by
  rw [pay_read, pay_read, h]

/-- The first layer's weights as a vector read the weight matrix's one row. -/
theorem w1c_apply (W1 : FVec Ideal S1x128 .f32) (j : Fin 128) : w1c W1 (ix1 j) = W1 (ix2 (0 : Fin 1) j) :=
  shapeCast_1a_a_apply W1 shapeCasts_S1x128_S128 j

/-- The five entries of row `j` of the first layer's matrix, for that unit's weight `w` and bias `b`. -/
def a1v (w b : EReal) : Fin 5 → EReal := ![w, w, w - w, b, b - b]

/-- The first layer's matrix at `(j, k)`. -/
theorem a1_apply (W1 : FVec Ideal S1x128 .f32) (b1 : FVec Ideal S128 .f32) (j : Fin 128) (k : Fin 5) :
    a1 W1 b1 (ix2 j k) = a1v (W1 (ix2 (0 : Fin 1) j)) (b1 (ix1 j)) k := by
  unfold a1
  have hi : ∀ (k : Fin 5) (b : Fin S128x1.rank), b.cast (rfl : S128x1.rank = S128x5.rank) ≠ (1 : Fin S128x5.rank) →
      ((ix2 j (0 : Fin 1) : S128x1.Idx) b).val = ((ix2 j k : S128x5.Idx) (b.cast rfl)).val := fun k b hb =>
    match b, hb with
    | ⟨0, _⟩, _ => rfl
    | ⟨1, _⟩, hb => absurd rfl hb
  match k with
  | ⟨0, h0⟩ =>
    refine (concatenate_apply_piece (1 : Fin S128x5.rank) _ _ (ix2 j (⟨0, h0⟩ : Fin 5)) 0 (by simp) S128x1
      (col (lead (w1c W1))) rfl rfl 0 rfl (ix2 j (0 : Fin 1)) (hi _) rfl).trans ?_
    unfold col
    refine (broadcastInDim_a_a1_apply _ bcast_S128_S128x1_0 j).trans ?_
    exact w1c_apply W1 j
  | ⟨1, h1⟩ =>
    refine (concatenate_apply_piece (1 : Fin S128x5.rank) _ _ (ix2 j (⟨1, h1⟩ : Fin 5)) 1 (by simp) S128x1
      (col (lead (w1c W1))) rfl rfl 1 rfl (ix2 j (0 : Fin 1)) (hi _) rfl).trans ?_
    unfold col
    refine (broadcastInDim_a_a1_apply _ bcast_S128_S128x1_0 j).trans ?_
    exact w1c_apply W1 j
  | ⟨2, h2⟩ =>
    refine (concatenate_apply_piece (1 : Fin S128x5.rank) _ _ (ix2 j (⟨2, h2⟩ : Fin 5)) 2 (by simp) S128x1
      (col (rest (w1c W1))) rfl rfl 2 rfl (ix2 j (0 : Fin 1)) (hi _) rfl).trans ?_
    unfold col
    refine (broadcastInDim_a_a1_apply _ bcast_S128_S128x1_0 j).trans ?_
    show w1c W1 (ix1 j) - w1c W1 (ix1 j) = W1 (ix2 (0 : Fin 1) j) - W1 (ix2 (0 : Fin 1) j)
    rw [w1c_apply]
  | ⟨3, h3⟩ =>
    refine (concatenate_apply_piece (1 : Fin S128x5.rank) _ _ (ix2 j (⟨3, h3⟩ : Fin 5)) 3 (by simp) S128x1
      (col (lead b1)) rfl rfl 3 rfl (ix2 j (0 : Fin 1)) (hi _) rfl).trans ?_
    unfold col
    exact broadcastInDim_a_a1_apply _ bcast_S128_S128x1_0 j
  | ⟨4, h4⟩ =>
    refine (concatenate_apply_piece (1 : Fin S128x5.rank) _ _ (ix2 j (⟨4, h4⟩ : Fin 5)) 4 (by simp) S128x1
      (col (rest b1)) rfl rfl 4 rfl (ix2 j (0 : Fin 1)) (hi _) rfl).trans ?_
    unfold col
    exact broadcastInDim_a_a1_apply _ bcast_S128_S128x1_0 j

/-- The second layer's transposed weights at `(j, k)`. -/
theorem w2t_apply (W2 : FVec Ideal S128x128 .f32) (j k : Fin 128) : w2t W2 (ix2 j k) = W2 (ix2 k j) :=
  transpose_ix2_apply W2 transposes_S128x128_S128x128_1_0 j k

/-- The second layer's bias column at `(j, 0)`. -/
theorem b2c_apply (b2 : FVec Ideal S128 .f32) (j : Fin 128) : b2c b2 (ix2 j (0 : Fin 1)) = b2 (ix1 j) :=
  shapeCast_a_a1_apply (truncf .bf16 b2 bitsLt_bf16_f32 : FVec Ideal S128 .bf16) shapeCasts_S128_S128x1 j

/-- The third layer's transposed weights at `(e, k)`. -/
theorem w3t_apply (W3 : FVec Ideal S128x5 .f32) (e : Fin 5) (k : Fin 128) : w3t W3 (ix2 e k) = W3 (ix2 k e) :=
  transpose_ix2_apply W3 transposes_S128x5_S5x128_1_0 e k

/-- The third layer's bias column at `(e, 0)`. -/
theorem b3c_apply (b3 : FVec Ideal S5 .f32) (e : Fin 5) : b3c b3 (ix2 e (0 : Fin 1)) = b3 (ix1 e) :=
  shapeCast_a_a1_apply b3 shapeCasts_S5_S5x1 e

/-- For a real input entry, weight and bias the five products add up to weight times input plus bias: the remainders `x − x`, `w − w`, `b − b` are zero. -/
theorem five_sum (r s u : ℝ) :
    ∑ k : Fin 5, a1v (s : EReal) (u : EReal) k * rowv (r : EReal) k = (r : EReal) * (s : EReal) + (u : EReal) := by
  rw [Fin.sum_univ_five]
  show (s : EReal) * (r : EReal) + (s : EReal) * ((r : EReal) - (r : EReal)) + ((s : EReal) - (s : EReal)) * (r : EReal)
      + (u : EReal) * 1 + ((u : EReal) - (u : EReal)) * 1 = (r : EReal) * (s : EReal) + (u : EReal)
  rw [← EReal.coe_sub, ← EReal.coe_sub, ← EReal.coe_sub, sub_self, sub_self, sub_self, EReal.coe_zero, mul_zero, zero_mul, zero_mul,
    mul_one, add_zero, add_zero, add_zero, mul_comm]

/-- On the prepared matrix, and for a real input entry, weights and biases, the first layer is the specification's. -/
theorem h1_spec (x : EReal) (W1 : FVec Ideal S1x128 .f32) (b1 : FVec Ideal S128 .f32) (j : Fin 128)
    (hx : ∃ r : ℝ, x = (r : EReal)) (hW1 : ∀ i, ∃ r : ℝ, W1 i = (r : EReal)) (hb1 : ∀ i, ∃ r : ℝ, b1 i = (r : EReal)) :
    h1 x (a1 W1 b1) j = Cert.Mlp.hid1 x W1 b1 j := by
  obtain ⟨r, rfl⟩ := hx
  obtain ⟨s, hs⟩ := hW1 (ix2 (0 : Fin 1) j)
  obtain ⟨u, hu⟩ := hb1 (ix1 j)
  unfold h1 Cert.Mlp.hid1
  rw [hs, hu, ← five_sum r s u]
  exact congrArg (max · 0) (Finset.sum_congr rfl fun k _ => by rw [a1_apply, hs, hu])

/-- The second layer on the prepared operands is the specification's: the sum's factors in the other order. -/
theorem h2_spec (x : EReal) (W1 : FVec Ideal S1x128 .f32) (b1 : FVec Ideal S128 .f32) (W2 : FVec Ideal S128x128 .f32)
    (b2 : FVec Ideal S128 .f32) (j : Fin 128)
    (hx : ∃ r : ℝ, x = (r : EReal)) (hW1 : ∀ i, ∃ r : ℝ, W1 i = (r : EReal)) (hb1 : ∀ i, ∃ r : ℝ, b1 i = (r : EReal)) :
    h2 x (a1 W1 b1) (w2t W2) (b2c b2) j = Cert.Mlp.hid2 x W1 b1 W2 b2 j := by
  unfold h2 Cert.Mlp.hid2
  rw [b2c_apply]
  exact congrArg (fun s => max (s + b2 (ix1 j)) 0)
    (Finset.sum_congr rfl fun k _ => by rw [w2t_apply, h1_spec x W1 b1 k hx hW1 hb1, mul_comm])

/-- The output layer on the prepared operands is the specification's. -/
theorem o3_spec (x : EReal) (W1 : FVec Ideal S1x128 .f32) (b1 : FVec Ideal S128 .f32) (W2 : FVec Ideal S128x128 .f32)
    (b2 : FVec Ideal S128 .f32) (W3 : FVec Ideal S128x5 .f32) (b3 : FVec Ideal S5 .f32) (e : Fin 5)
    (hx : ∃ r : ℝ, x = (r : EReal)) (hW1 : ∀ i, ∃ r : ℝ, W1 i = (r : EReal)) (hb1 : ∀ i, ∃ r : ℝ, b1 i = (r : EReal)) :
    o3 x (a1 W1 b1) (w2t W2) (b2c b2) (w3t W3) (b3c b3) e = Cert.Mlp.outV x W1 b1 W2 b2 W3 b3 e := by
  unfold o3 Cert.Mlp.outV
  rw [b3c_apply]
  exact congrArg (· + b3 (ix1 e))
    (Finset.sum_congr rfl fun k _ => by rw [w3t_apply, h2_spec x W1 b1 W2 b2 k hx hW1 hb1, mul_comm])

/-- On the operands the host program prepares, and where the input entry and the first layer's weights and biases
    are real numbers, the stored block's entry `(e, q)` is the specification's perceptron of the input entry `q`. -/
theorem pay_spec (v0 : Vec Ideal S1x12800 .f32) (W1 : FVec Ideal S1x128 .f32) (b1 : FVec Ideal S128 .f32)
    (W2 : FVec Ideal S128x128 .f32) (b2 : FVec Ideal S128 .f32) (W3 : FVec Ideal S128x5 .f32) (b3 : FVec Ideal S5 .f32)
    (e : Fin 5) (q : Fin 12800)
    (hx : ∃ r : ℝ, v0 (ix2 (0 : Fin 1) q) = (r : EReal)) (hW1 : ∀ i, ∃ r : ℝ, W1 i = (r : EReal)) (hb1 : ∀ i, ∃ r : ℝ, b1 i = (r : EReal)) :
    k0_pay1 (F := Ideal) v0 (a1 W1 b1) (w2t W2) (b2c b2) (w3t W3) (b3c b3) (ix2 e q)
      = Cert.Mlp.outV (v0 (ix2 (0 : Fin 1) q)) W1 b1 W2 b2 W3 b3 e := by
  rw [pay_read]
  exact o3_spec _ W1 b1 W2 b2 W3 b3 e hx hW1 hb1

end Cert.KernelIdeal.Val

end
-- ==== Proof.IdealRun.lean ====
/-
  The idealized kernel program's run. The body, on whole staging buffers, loads its six operands and stores one
  value, a function of the six; it runs so at every grid point, whichever of a window's staging buffers the point
  uses. Column q of the stored block reads column q of the input row only, so what the body stores on the columns
  inside the array does not depend on what the input row's buffer holds past the array's end: that is what lets the
  proof data name the stored block although the last point's buffer holds entries nothing names.
-/
import proofs.«137531_g64828236366229_cont_9to1_m_1379_10_alg».proof.Proof.IdealData
import proofs.«137531_g64828236366229_cont_9to1_m_1379_10_alg».proof.Proof.KernelValue
import Idealize.ShloMosaic.Lib.Pipeline.FrameBody
import Idealize.ShloMosaic.Lib.Pipeline.Value
import Idealize.ShloMosaic.Lib.Pipeline.FrameSuffix
import Idealize.ShloMosaic.Lib.StableHlo.Run
import Idealize.ShloMosaic.Lib.Tactic

set_option maxRecDepth 16384

noncomputable section

namespace Cert.KernelIdeal.Run

open Cert.KernelIdeal Cert.KernelIdeal.Gen Cert.KernelIdeal.Opd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body -/

/-- The body's accesses: each buffer whole. -/
abbrev rRow : Rect S1x12800 := Rect.unit (s := S1x12800) ![0, 0] S1x12800.size inb_S1x12800_S1x12800_0_0
abbrev rA1 : Rect S128x5 := Rect.unit (s := S128x5) ![0, 0] S128x5.size inb_S128x5_S128x5_0_0
abbrev rW2 : Rect S128x128 := Rect.unit (s := S128x128) ![0, 0] S128x128.size inb_S128x128_S128x128_0_0
abbrev rB2 : Rect S128x1 := Rect.unit (s := S128x1) ![0, 0] S128x1.size inb_S128x1_S128x1_0_0
abbrev rW3 : Rect S5x128 := Rect.unit (s := S5x128) ![0, 0] S5x128.size inb_S5x128_S5x128_0_0
abbrev rB3 : Rect S5x1 := Rect.unit (s := S5x1) ![0, 0] S5x1.size inb_S5x1_S5x1_0_0
abbrev rOut : Rect S5x12800 := Rect.unit (s := S5x12800) ![0, 0] S5x12800.size inb_S5x12800_S5x12800_0_0

theorem zero2 : (![0, 0] : Fin 2 → Nat) = fun _ => 0 := funext fun a => by fin_cases a <;> rfl

/-- What the output's buffer holds after the body: its one store, of the payload of the six loads. -/
def stored (x0 : Vec F S1x12800 .f32) (x1 : Vec F S128x5 .bf16) (x2 : Vec F S128x128 .bf16) (x3 : Vec F S128x1 .bf16)
    (x4 : Vec F S5x128 .bf16) (x5 : Vec F S5x1 .f32) : Vec F S5x12800 .f32 :=
  View.canon [⟨rOut, k0_pay1 (View.ld x0 rRow) (View.ld x1 rA1) (View.ld x2 rW2) (View.ld x3 rB2) (View.ld x4 rW3) (View.ld x5 rB3)⟩]

/-- Every access is of a whole buffer, so that is the payload of the buffers' contents. -/
theorem stored_eq (x0 : Vec F S1x12800 .f32) (x1 : Vec F S128x5 .bf16) (x2 : Vec F S128x128 .bf16) (x3 : Vec F S128x1 .bf16)
    (x4 : Vec F S5x128 .bf16) (x5 : Vec F S5x1 .f32) : stored x0 x1 x2 x3 x4 x5 = k0_pay1 x0 x1 x2 x3 x4 x5 := by
  unfold stored
  rw [View.canon_unit_zero zero2]
  simp only [View.ld_unit_zero (S := S1x12800) zero2, View.ld_unit_zero (S := S128x5) zero2, View.ld_unit_zero (S := S128x128) zero2,
    View.ld_unit_zero (S := S128x1) zero2, View.ld_unit_zero (S := S5x128) zero2, View.ld_unit_zero (S := S5x1) zero2]

theorem store_covers (p0 : Vec F S5x12800 .f32) (y : S5x12800.Idx) :
    ∃ pc ∈ ([⟨rOut, p0⟩] : List (View.Piece (Elt F) S5x12800 .f32)), y ∈ pc.1.set :=
  ⟨_, List.mem_singleton_self _, View.mem_set_unit_zero zero2 inb_S5x12800_S5x12800_0_0 y⟩

set_option maxHeartbeats 1000000 in
/-- The body on whole staging memrefs, the six inputs' at contents `x0 … x5` and the output's at anything: it runs to
    the end with the inputs' as they were and the output's at `stored` of them. -/
theorem body_run (c : Dev nD) (N : Set ℕ) (i : grid0.Coords)
    (a1 : Memref sig .tc .vmem S1x12800 .f32) (h1 : a1.IsWhole) (a2 : Memref sig .tc .vmem S128x5 .bf16) (h2 : a2.IsWhole)
    (a3 : Memref sig .tc .vmem S128x128 .bf16) (h3 : a3.IsWhole) (a4 : Memref sig .tc .vmem S128x1 .bf16) (h4 : a4.IsWhole)
    (a5 : Memref sig .tc .vmem S5x128 .bf16) (h5 : a5.IsWhole) (a6 : Memref sig .tc .vmem S5x1 .f32) (h6 : a6.IsWhole)
    (a7 : Memref sig .tc .vmem S5x12800 .f32) (h7 : a7.IsWhole)
    (x0 : Vec F S1x12800 .f32) (x1 : Vec F S128x5 .bf16) (x2 : Vec F S128x128 .bf16) (x3 : Vec F S128x1 .bf16)
    (x4 : Vec F S5x128 .bf16) (x5 : Vec F S5x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (k0_pay1 x0 x1 x2 x3 x4 x5)) -∗ K ⟨⟩))
      ⊢ wp frame (wpE (defs₀ (F := F)) Variants.none c none) N (cc0__mlp_kernel i a1 h1 a2 h2 a3 h3 a4 h4 a5 h5 a6 h6 a7 h7) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0; subst e1; subst e2; subst e3; subst e4; subst e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (store_covers _)).trans (stored_eq _ _ _ _ _ _)

/-! ## What the stored block's columns inside the array depend on -/

open Idealize.ShloMosaic.ValueIdx in
/-- At every point the input row's transfer moves its one row and as many columns as the output's. -/
theorem moved_sizes : ∀ t : Fin grid0.N, win0_0.xsize (grid0.coords t) 0 = 1
    ∧ win0_0.xsize (grid0.coords t) 1 = win0_6.xsize (grid0.coords t) 1 := by decide +kernel

open Idealize.ShloMosaic.ValueIdx in
/-- On a column the transfers move, the input row's buffer holds the array's entry whatever lay there before. -/
theorem rowBlk_indep (m : (ℓ : Loc nD τ sig) → Buf (Elt F) ℓ) (c : Dev nD) (t : Fin cfg0.N) (d d' : S1x12800.Idx → Elt F .f32)
    (q : Fin 12800) (hq : q.val < win0_6.xsize (grid0.coords t) 1) :
    rowBlk m c t d (ix2 (0 : Fin 1) q) = rowBlk m c t d' (ix2 (0 : Fin 1) q) := by
  have hm : win0_0.moved (grid0.coords t) (ix2 (0 : Fin 1) q) = true := (win0_0.moved_iff _ _).mpr fun a => by
    match a with
    | ⟨0, _⟩ => show 0 < win0_0.xsize (grid0.coords t) 0; rw [(moved_sizes t).1]; exact Nat.one_pos
    | ⟨1, _⟩ => show q.val < win0_0.xsize (grid0.coords t) 1; rw [(moved_sizes t).2]; exact hq
  unfold rowBlk Window.fill
  rw [dif_pos hm, dif_pos hm]

open Idealize.ShloMosaic.ValueIdx in
/-- So the part of the stored block that is written back does not depend on what the input row's buffer holds past
    the array's end: column `q` of the stored block reads column `q` of the row alone. -/
theorem out_cut_indep (m : (ℓ : Loc nD τ sig) → Buf (Elt Ideal) ℓ) (c : Dev nD) (t : Fin cfg0.N) (d d' : S1x12800.Idx → Elt Ideal .f32) :
    win0_6.cut (grid0.coords t) (outBlk m c t d) = win0_6.cut (grid0.coords t) (outBlk m c t d') := by
  funext y
  show outBlk m c t d (win0_6.xinj (grid0.coords t) y) = outBlk m c t d' (win0_6.xinj (grid0.coords t) y)
  have hy : win0_6.xinj (grid0.coords t) y
      = (ix2 (⟨(y 0).val, Nat.lt_of_lt_of_le (y 0).isLt (win0_6.xsize_le (grid0.coords t) 0)⟩ : Fin 5)
          (⟨(y 1).val, Nat.lt_of_lt_of_le (y 1).isLt (win0_6.xsize_le (grid0.coords t) 1)⟩ : Fin 12800) : S5x12800.Idx) :=
    funext fun a => by match a with | ⟨0, _⟩ => rfl | ⟨1, _⟩ => rfl
  rw [hy]; unfold outBlk
  exact Val.pay_local _ _ _ _ _ _ _ _ _ (rowBlk_indep m c t d d' _ (y 1).isLt)

/-- A fetch's overwrite aside, the input row's buffer is left as the body found it; -/
theorem keep_row (m : (ℓ : Loc nD τ sig) → Buf (Elt F) ℓ) (c : Dev nD) (t : Fin cfg0.N) (d0 : S1x12800.Idx → Elt F .f32) :
    (win0 0).fill (grid0.coords t) d0 ((win0 0).cut (grid0.coords t) (rowBlk m c t zf)) = rowBlk m c t d0 := by
  show win0_0.fill (grid0.coords t) d0 (win0_0.cut (grid0.coords t) (rowBlk m c t zf)) = _
  unfold rowBlk; rw [Window.cut_fill]

/-- and the stored block agrees, on the columns written back, with the proof data's. -/
theorem keep_out (m : (ℓ : Loc nD τ sig) → Buf (Elt Ideal) ℓ) (c : Dev nD) (t : Fin cfg0.N) (d0 : S1x12800.Idx → Elt Ideal .f32) :
    (win0 6).fill (grid0.coords t) (outBlk m c t d0) ((win0 6).cut (grid0.coords t) (outBlk m c t zf)) = outBlk m c t d0 :=
  win0_6.fill_congr_cut _ (out_cut_indep m c t d0 zf)

/-! ## The body obligation and the run -/

/-- The library's body obligation at every point: the operands' buffers hold their blocks (the input row's with
    anything past the array's end), so the body stores the payload of them; on the columns written back that is the
    proof data's stored block. -/
theorem body_obligation (m : (ℓ : Loc nD τ sig) → Buf (Elt Ideal) ℓ) (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5,
    before_6 m c t d6]
  iapply (body_run (F := Ideal) c Set.univ (grid0.coords t) _ _ _ _ _ _ _ _ _ _ _ _ _ _
    (rowBlk m c t d0) (blk m c 1 t) (blk m c 2 t) (blk m c 3 t) (blk m c 4 t) (blk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  isplitl [H0]
  · iexists d0
    rw [after_0, keep_row]
    iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  iexists outBlk m c t d0
  rw [after_6, keep_out]
  iexact H6

-- the launch theorem's implicit arguments are found by unifying its conclusion with this one, which takes unfolding
-- plain definitions in a metavariable's type
set_option backward.isDefEq.respectTransparency.types false in
/-- At the compiled mesh, from any memory with zero counters: every weakly fair execution of the idealized kernel
    program terminates, every array of the pipeline ends at what the proof data compute, and every other unscoped
    buffer as the transposition after the region leaves it. -/
theorem run_main (m : (ℓ : Loc nD τ sig) → Buf (Elt Ideal) ℓ) (ρ : Dev nD → PrngReg) :
    θ_run defs (onTc (τ := τ) (main (F := Ideal))) (s₀ m ρ)
      (Pipeline.FramePost cfgs (dats m) 0 (Pipeline.afterTail₀ cfgs (dats m) 0 (E0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := E0 m) (opss := [hostOps1]) (hsub := tail_sub) (hfresh := tail_fresh) (hkeep := tail_keeps)
    (hmain := main_around m Variants.none) (hA := A_eq m) (hΦ := fun _ _ => rfl)

end Cert.KernelIdeal.Run

end
-- ==== Proof.IdealBlocks.lean ====
/-
  The blocks the kernel reads, as entries of the program's arguments. The five small operands are staged whole:
  their block at every grid point is the whole array the host program prepared. The input row's block at point t
  is columns 12800·t … of the row, which is the inputs laid out in a row: entry q of the block is input 12800·t + q.
-/
import proofs.«137531_g64828236366229_cont_9to1_m_1379_10_alg».proof.Proof.IdealData
import Idealize.ShloMosaic.Lib.Pipeline.Value
import Idealize.ShloMosaic.Lib.ValueIdx
import Idealize.ShloMosaic.Lib.ValueLayout

set_option maxRecDepth 16384

noncomputable section

namespace Cert.KernelIdeal.Run

open Cert.KernelIdeal Cert.KernelIdeal.Gen Cert.KernelIdeal.Opd
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The five small operands' index maps are constantly the first block, on both axes. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The five small operands' blocks are the whole arrays. -/
theorem blk_a1 (c : Dev nD) (t : Fin cfg0.N) :
    blk m c 1 t = a1 (m ((c : Thread nD τ).loc main_arg1)) (m ((c : Thread nD τ).loc main_arg2)) := by
  rw [← E_a1 m c]
  funext y
  show E m c main_v15 (((cfg0.win 1).blk t).view.emb y) = E m c main_v15 y
  refine congrArg (E m c main_v15) (funext fun a => Fin.ext ?_)
  have hi := idx1 t
  match a with
  | ⟨0, _⟩ => show win0_1.index t (0 : Fin 2) * 128 + 1 * (y 0).val = (y 0).val; rw [hi.1]; omega
  | ⟨1, _⟩ => show win0_1.index t (1 : Fin 2) * 5 + 1 * (y 1).val = (y 1).val; rw [hi.2]; omega
theorem blk_w2t (c : Dev nD) (t : Fin cfg0.N) : blk m c 2 t = w2t (m ((c : Thread nD τ).loc main_arg3)) := by
  rw [← E_w2t m c]
  funext y
  show E m c main_v17 (((cfg0.win 2).blk t).view.emb y) = E m c main_v17 y
  refine congrArg (E m c main_v17) (funext fun a => Fin.ext ?_)
  have hi := idx2 t
  match a with
  | ⟨0, _⟩ => show win0_2.index t (0 : Fin 2) * 128 + 1 * (y 0).val = (y 0).val; rw [hi.1]; omega
  | ⟨1, _⟩ => show win0_2.index t (1 : Fin 2) * 128 + 1 * (y 1).val = (y 1).val; rw [hi.2]; omega
theorem blk_b2c (c : Dev nD) (t : Fin cfg0.N) : blk m c 3 t = b2c (m ((c : Thread nD τ).loc main_arg4)) := by
  rw [← E_b2c m c]
  funext y
  show E m c main_v19 (((cfg0.win 3).blk t).view.emb y) = E m c main_v19 y
  refine congrArg (E m c main_v19) (funext fun a => Fin.ext ?_)
  have hi := idx3 t
  match a with
  | ⟨0, _⟩ => show win0_3.index t (0 : Fin 2) * 128 + 1 * (y 0).val = (y 0).val; rw [hi.1]; omega
  | ⟨1, _⟩ => show win0_3.index t (1 : Fin 2) * 1 + 1 * (y 1).val = (y 1).val; rw [hi.2]; omega
theorem blk_w3t (c : Dev nD) (t : Fin cfg0.N) : blk m c 4 t = w3t (m ((c : Thread nD τ).loc main_arg5)) := by
  rw [← E_w3t m c]
  funext y
  show E m c main_v21 (((cfg0.win 4).blk t).view.emb y) = E m c main_v21 y
  refine congrArg (E m c main_v21) (funext fun a => Fin.ext ?_)
  have hi := idx4 t
  match a with
  | ⟨0, _⟩ => show win0_4.index t (0 : Fin 2) * 5 + 1 * (y 0).val = (y 0).val; rw [hi.1]; omega
  | ⟨1, _⟩ => show win0_4.index t (1 : Fin 2) * 128 + 1 * (y 1).val = (y 1).val; rw [hi.2]; omega
theorem blk_b3c (c : Dev nD) (t : Fin cfg0.N) : blk m c 5 t = b3c (m ((c : Thread nD τ).loc main_arg6)) := by
  rw [← E_b3c m c]
  funext y
  show E m c main_v22 (((cfg0.win 5).blk t).view.emb y) = E m c main_v22 y
  refine congrArg (E m c main_v22) (funext fun a => Fin.ext ?_)
  have hi := idx5 t
  match a with
  | ⟨0, _⟩ => show win0_5.index t (0 : Fin 2) * 5 + 1 * (y 0).val = (y 0).val; rw [hi.1]; omega
  | ⟨1, _⟩ => show win0_5.index t (1 : Fin 2) * 1 + 1 * (y 1).val = (y 1).val; rw [hi.2]; omega

/-- The input row's index map: block 0 on the unit axis, block `t` along the row; and the transfer moves the unit axis whole. -/
theorem idx0 : ∀ t : Fin cfg0.N, win0_0.index t (0 : Fin 2) = 0 ∧ win0_0.index t (1 : Fin 2) = t.val
    ∧ win0_0.xsize (grid0.coords t) (0 : Fin 2) = 1 :=
  (by decide +kernel : ∀ t : Fin grid0.N, win0_0.index t (0 : Fin 2) = 0 ∧ win0_0.index t (1 : Fin 2) = t.val
    ∧ win0_0.xsize (grid0.coords t) (0 : Fin 2) = 1)

/-- On a column the transfer moves, the input row's buffer holds input `12800·t + q`. -/
theorem rowBlk_at (c : Dev nD) (t : Fin cfg0.N) (d : S1x12800.Idx → Elt F .f32) (q : Fin 12800)
    (hq : q.val < win0_0.xsize (grid0.coords t) 1) (hlt : 12800 * t.val + q.val < 100000) :
    rowBlk m c t d (ix2 (0 : Fin 1) q)
      = (m ((c : Thread nD τ).loc main_arg0) : S100000.Idx → Elt F .f32) (ix1 (⟨12800 * t.val + q.val, hlt⟩ : Fin 100000)) := by
  obtain ⟨h0, h1, hx0⟩ := idx0 t
  have hmv : win0_0.moved (grid0.coords t) (ix2 (0 : Fin 1) q) = true :=
    (win0_0.moved_iff _ _).mpr fun a => match a with
      | ⟨0, _⟩ => by show 0 < win0_0.xsize (grid0.coords t) (0 : Fin 2); rw [hx0]; exact Nat.one_pos
      | ⟨1, _⟩ => hq
  unfold rowBlk Window.fill
  rw [dif_pos hmv]
  show E m c main_v0 (((cfg0.win 0).blk t).view.emb _) = _
  rw [E_row]
  unfold rowT
  refine shapeCast_apply _ shapeCasts_S100000_S1x100000 _ _ ?_
  rw [Shape.rowMajor_val_one, Shape.rowMajor_val_two]
  show 12800 * t.val + q.val
    = (win0_0.index t (0 : Fin 2) * 1 + 1 * 0) * 100000 + (win0_0.index t (1 : Fin 2) * 12800 + 1 * q.val)
  rw [h0, h1]; omega

end Cert.KernelIdeal.Run

end
-- ==== Proof.IdealArray.lean ====
/-
  From the blocks to the array. The output window's eight blocks of 12800 columns cover the 100000 columns of the
  kernel's result (the last block's 10400 columns inside the array); each written-back block is, column by column,
  the perceptron of the input at that column; so the result array is the perceptron of every input, five rows of
  100000, and its transposition is the specification's array.
-/
import proofs.«137531_g64828236366229_cont_9to1_m_1379_10_alg».proof.Proof.IdealData
import proofs.«137531_g64828236366229_cont_9to1_m_1379_10_alg».proof.Proof.IdealBlocks
import proofs.«137531_g64828236366229_cont_9to1_m_1379_10_alg».proof.Proof.KernelValue
import proofs.«137531_g64828236366229_cont_9to1_m_1379_10_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Run

open Cert.KernelIdeal Cert.KernelIdeal.Gen Cert.KernelIdeal.Opd Cert.KernelIdeal.Val
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The kernel's result array as the specification states it: row `e`, column `p` holds component `e` of the
    perceptron of input `p`. -/
def specRows (c : Dev nD) : S5x100000.Idx → EReal := fun i =>
  Cert.Mlp.outV ((m ((c : Thread nD τ).loc main_arg0) : S100000.Idx → EReal) (ix1 (i 1))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0)

/-- The printed index maps and the clipped block sizes of the input row's window and the output's, decided over
    the grid: both have block index (0, t) at point t; the input row's block has 1 row and the output's 5; the two are
    cut to the same number of columns, which stay inside the 100000 columns of the arrays — 12800 at every point but
    the last and 10400 there. -/
theorem idx_big : ∀ t : Fin cfg0.N,
    win0_0.index t (0 : Fin 2) = 0 ∧ win0_0.index t (1 : Fin 2) = t.val
    ∧ win0_6.index t (0 : Fin 2) = 0 ∧ win0_6.index t (1 : Fin 2) = t.val
    ∧ win0_0.xsize (grid0.coords t) (0 : Fin 2) = 1
    ∧ win0_6.xsize (grid0.coords t) (0 : Fin 2) = 5
    ∧ win0_0.xsize (grid0.coords t) (1 : Fin 2) = win0_6.xsize (grid0.coords t) (1 : Fin 2)
    ∧ t.val * 12800 + win0_6.xsize (grid0.coords t) (1 : Fin 2) ≤ 100000
    ∧ (t.val + 1 < 8 → win0_6.xsize (grid0.coords t) (1 : Fin 2) = 12800)
    ∧ (t.val + 1 = 8 → win0_6.xsize (grid0.coords t) (1 : Fin 2) = 10400) :=
  (by decide +kernel : ∀ t : Fin grid0.N, _)

/-- What point `t` writes back is block `t` of `specRows`: entry (e, q) of the stored block, for q inside the part
    of the block that lies in the array, is the perceptron of the input row's entry q, which is input 12800·t + q, and
    that entry sits in the array at row e, column 12800·t + q. -/
theorem flushed_eq (c : Dev nD) (t : Fin cfg0.N)
    (h0 : ∀ i, ∃ r : ℝ, (m ((c : Thread nD τ).loc main_arg0) : S100000.Idx → EReal) i = (r : EReal))
    (h1 : ∀ i, ∃ r : ℝ, (m ((c : Thread nD τ).loc main_arg1) : S1x128.Idx → EReal) i = (r : EReal))
    (h2 : ∀ i, ∃ r : ℝ, (m ((c : Thread nD τ).loc main_arg2) : S128.Idx → EReal) i = (r : EReal)) :
    (dats m 0 c).flushed 6 t = ((cfg0.win 6).blk t).view.read (Elt Ideal) (specRows m c) := by
  show (cfg0.win 6).cut (grid0.coords t) ((dats m 0 c).after 6 t) = _
  rw [after_6]
  funext y
  rw [View.read_apply]
  unfold outBlk
  rw [blk_a1, blk_w2t, blk_b2c, blk_w3t, blk_b3c]
  obtain ⟨i00, i01, i60, i61, x00, x60, xeq, hle, -, -⟩ := idx_big t
  have hy0 : (y 0).val < win0_6.xsize (grid0.coords t) (0 : Fin 2) := (y 0).isLt
  have hy1 : (y 1).val < win0_6.xsize (grid0.coords t) (1 : Fin 2) := (y 1).isLt
  rw [x60] at hy0
  have hq : (y 1).val < 12800 := lt_of_lt_of_le hy1 (win0_6.xsize_le (grid0.coords t) (1 : Fin 2))
  have hlt : 12800 * t.val + (y 1).val < 100000 := by omega
  have hx : (cfg0.win 6).xinj (grid0.coords t) y = ix2 (⟨(y 0).val, hy0⟩ : Fin 5) (⟨(y 1).val, hq⟩ : Fin 12800) :=
    funext fun a => by match a with | ⟨0, _⟩ => rfl | ⟨1, _⟩ => rfl
  have hrow := rowBlk_at m c t zf (⟨(y 1).val, hq⟩ : Fin 12800) (by rw [xeq]; exact hy1) hlt
  show k0_pay1 (F := Ideal) _ _ _ _ _ _ ((cfg0.win 6).xinj (grid0.coords t) y) = specRows m c (((cfg0.win 6).blk t).view.emb y)
  rw [hx, pay_spec _ _ _ _ _ _ _ _ _ (by rw [hrow]; exact h0 _) h1 h2, hrow]
  have he0 : (((cfg0.win 6).blk t).view.emb y 0 : Fin 5) = ⟨(y 0).val, hy0⟩ :=
    Fin.ext (by show win0_6.index t (0 : Fin 2) * 5 + 1 * (y 0).val = (y 0).val; rw [i60]; omega)
  have he1 : (((cfg0.win 6).blk t).view.emb y 1 : Fin 100000) = ⟨12800 * t.val + (y 1).val, hlt⟩ :=
    Fin.ext (by show win0_6.index t (1 : Fin 2) * 12800 + 1 * (y 1).val = 12800 * t.val + (y 1).val; rw [i61]; omega)
  simp only [specRows]
  rw [he0, he1]
  rfl

/-- An index of the result array is in point `t`'s block iff each coordinate is in the block's range on its axis: from
    the block index times the block size, for as many entries as lie inside the array. -/
theorem mem_blk6 (t : Fin cfg0.N) (i : S5x100000.Idx) :
    i ∈ ((cfg0.win 6).blk t).view.set ↔ ∀ a : Fin 2, win0_6.index t a * S5x12800.size a ≤ (i a).val
      ∧ (i a).val < win0_6.index t a * S5x12800.size a + win0_6.xsize (grid0.coords t) a := by
  show i ∈ ((View.whole main_v23).slice (win0_6.rect t)).set ↔ _
  rw [View.set_slice_whole, Rect.mem_set_unit]
  exact Iff.rfl

/-- Column p of the result lies in block p / 12800: the eight blocks cover the 100000 columns, the last with its
    10400 columns 89600 … 99999. -/
theorem cover6 (i : S5x100000.Idx) :
    ∃ t : Fin cfg0.N, (cfg0.win 6).flush t = true ∧ i ∈ ((cfg0.win 6).blk t).view.set := by
  have hi0 : (i 0).val < 5 := (i 0).isLt
  have hi1 : (i 1).val < 100000 := (i 1).isLt
  have hN : (i 1).val / 12800 < cfg0.N := by
    show (i 1).val / 12800 < 8
    omega
  refine ⟨⟨(i 1).val / 12800, hN⟩, flush0_6 _, ?_⟩
  rw [mem_blk6]
  obtain ⟨-, -, i60, i61, -, x60, -, -, hfull, hlast⟩ := idx_big ⟨(i 1).val / 12800, hN⟩
  intro a
  match a with
  | ⟨0, _⟩ =>
    show win0_6.index ⟨(i 1).val / 12800, hN⟩ (0 : Fin 2) * 5 ≤ (i 0).val
      ∧ (i 0).val < win0_6.index ⟨(i 1).val / 12800, hN⟩ (0 : Fin 2) * 5 + win0_6.xsize (grid0.coords ⟨(i 1).val / 12800, hN⟩) (0 : Fin 2)
    rw [i60, x60]; omega
  | ⟨1, _⟩ =>
    show win0_6.index ⟨(i 1).val / 12800, hN⟩ (1 : Fin 2) * 12800 ≤ (i 1).val
      ∧ (i 1).val < win0_6.index ⟨(i 1).val / 12800, hN⟩ (1 : Fin 2) * 12800 + win0_6.xsize (grid0.coords ⟨(i 1).val / 12800, hN⟩) (1 : Fin 2)
    rw [i61]
    by_cases hl : (i 1).val / 12800 + 1 < 8
    · rw [hfull hl]; show (i 1).val / 12800 * 12800 ≤ (i 1).val ∧ (i 1).val < (i 1).val / 12800 * 12800 + 12800; omega
    · rw [hlast (by show (i 1).val / 12800 + 1 = 8; omega)]
      show (i 1).val / 12800 * 12800 ≤ (i 1).val ∧ (i 1).val < (i 1).val / 12800 * 12800 + 10400; omega

/-- Where the inputs and the first layer's weights and biases are real numbers, the kernel's result array ends at
    `specRows`. -/
theorem out_rows (c : Dev nD)
    (h0 : ∀ i, ∃ r : ℝ, (m ((c : Thread nD τ).loc main_arg0) : S100000.Idx → EReal) i = (r : EReal))
    (h1 : ∀ i, ∃ r : ℝ, (m ((c : Thread nD τ).loc main_arg1) : S1x128.Idx → EReal) i = (r : EReal))
    (h2 : ∀ i, ∃ r : ℝ, (m ((c : Thread nD τ).loc main_arg2) : S128.Idx → EReal) i = (r : EReal)) :
    (dats m 0 c).arrAt 6 cfg0.N = specRows m c := by
  exact (dats m 0 c).arrAt_eq_of_cover 6 (specRows m c) (fun t _ => flushed_eq m c t h0 h1 h2) cover6

/-- Transposed, that is the specification's array. -/
theorem outT_specRows (c : Dev nD) :
    outT (F := Ideal) (specRows m c) = Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨p, e, rfl⟩ : ∃ (p : Fin 100000) (e : Fin 5), i = ix2 p e := ⟨i 0, i 1, eq_ix2 i⟩
  rw [Cert.Mlp.out_apply]
  unfold outT
  rw [transpose_ix2_apply]
  rfl

end Cert.KernelIdeal.Run

end
-- ==== Proof.Finite.lean ====
/-
  What the precondition gives: it is the conjunction, over the seven argument arrays, of "every entry's absolute
  value is below +∞", so every entry of every argument is a real number. Used for the inputs and the first layer's
  weights and biases, where the kernel forms differences x − x.
-/
import proofs.«137531_g64828236366229_cont_9to1_m_1379_10_alg».proof.Pre_finite_inputs
import proofs.«137531_g64828236366229_cont_9to1_m_1379_10_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Mlp.Finite

open Cert.Pre_finite_inputs
open Idealize.ShloMosaic Idealize.ShloMosaic.ValueIdx

/-- The rank-0 shape has exactly one index. -/
instance : Subsingleton S_.Idx := ⟨fun a b => funext fun d => d.elim0⟩

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` is below `+∞` is a real number: for `a = -∞` the maximum
    is `-(-∞) = +∞`, for `a = +∞` it is `a` itself. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- One argument's conjunct: if the conjunction over all of an array's indices of "`|x i| < +∞`" is true, then every
    entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
      (cmpf .olt (Host.absf x) (broadcastInDim s ![] hb (constant S_ .f32 0x7F800000#32)))
      (constantI S_ 1 1#1) hr hu ix0 = 1#1) (i : s.Idx) : ∃ r : ℝ, x i = (r : EReal) :=
  real_of_abs_lt (x i) (Host.reduce_andi_all _ _ hr hu ix0 e i)

/-- Under the precondition every entry of the first three arguments is a real number. -/
theorem real_of_pre [Cert.Pre_finite_inputs.Facts]
    (x0 : FVec Ideal S100000 .f32) (x1 : FVec Ideal S1x128 .f32) (x2 : FVec Ideal S128 .f32)
    (x3 : FVec Ideal S128x128 .f32) (x4 : FVec Ideal S128 .f32) (x5 : FVec Ideal S128x5 .f32) (x6 : FVec Ideal S5 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn, fn_part1] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2⟩

end Cert.Mlp.Finite

end
-- ==== Proof.RefValue.lean ====
/-
  The reference program's result, stage by stage, is the perceptron of the specification: a product of an
  N × 1 by a 1 × 128 matrix is the one product, the two later matrix products are the sums over the 128 hidden
  units, each bias is added along its rows, and each rectifier is the maximum with zero.
-/
import proofs.«137531_g64828236366229_cont_9to1_m_1379_10_alg».proof.Proof.Gen.ReferenceIdeal.Run
import proofs.«137531_g64828236366229_cont_9to1_m_1379_10_alg».proof.Proof.Gen.ReferenceIdeal.Read
import proofs.«137531_g64828236366229_cont_9to1_m_1379_10_alg».proof.Proof.Spec
import Idealize.ShloMosaic.Lib.ValueIdx
import Idealize.ShloMosaic.PureOps.Ideal.Laws

noncomputable section

open scoped BigOperators

namespace Cert.Mlp.Ref

open Cert.ReferenceIdeal Cert.ReferenceIdeal.Gen Cert.ReferenceIdeal.Read
open Idealize.ShloMosaic Idealize.ShloMosaic.ValueIdx

/-- After the first rectifier, row `p`, column `j` holds the first hidden layer of `t[p]` at unit `j`: the
    contraction over the single shared axis is its one term `t[p] · W1[0, j]`, the bias row is read at column `j`,
    and the constant it is compared with is the real number zero. -/
theorem v5_at (x0 : FVec Ideal S100000 .f32) (x1 : FVec Ideal S1x128 .f32) (x2 : FVec Ideal S128 .f32)
    (p : Fin 100000) (j : Fin 128) :
    val_main_v5 (F := Ideal) x0 x1 x2 (ix2 p j) = Cert.Mlp.hid1 (x0 (ix1 p)) x1 x2 j := by
  have e0 : idx_main_v0 (lidx_main_v1 (ix2 p j) 0) = ix1 p :=
    funext fun a => Fin.ext (by match a with | ⟨0, _⟩ => rfl)
  have e1 : ridx_main_v1 (ix2 p j) 0 = ix2 (0 : Fin 1) j :=
    funext fun a => Fin.ext (by match a with | ⟨0, _⟩ => rfl | ⟨1, _⟩ => rfl)
  have e2 : idx_main_v2 (idx_main_v3 (ix2 p j)) = ix1 j :=
    funext fun a => Fin.ext (by match a with | ⟨0, _⟩ => rfl)
  rw [val_main_v5_apply, val_main_v4_apply, val_main_v1_apply, val_main_v3_apply, val_main_v2_apply,
    val_main_call0_v0_apply, val_main_call0_cst_apply, Fin.sum_univ_one, val_main_v0_apply, e0, e1, e2,
    Ideal.addf_def, Ideal.maximumf_def, Ideal.ofBits_def, Ideal.ofBits_zero_f32]
  rfl

/-- After the second rectifier, row `p`, column `j` holds the second hidden layer of `t[p]` at unit `j`: the
    contraction reads the left factor along row `p` and the right factor down column `j`, and each left factor is a
    first-layer value by the previous stage. -/
theorem v10_at (x0 : FVec Ideal S100000 .f32) (x1 : FVec Ideal S1x128 .f32) (x2 : FVec Ideal S128 .f32)
    (x3 : FVec Ideal S128x128 .f32) (x4 : FVec Ideal S128 .f32) (p : Fin 100000) (j : Fin 128) :
    val_main_v10 (F := Ideal) x0 x1 x2 x3 x4 (ix2 p j) = Cert.Mlp.hid2 (x0 (ix1 p)) x1 x2 x3 x4 j := by
  have el : ∀ k : Fin 128, lidx_main_v6 (ix2 p j) k = ix2 p k := fun k =>
    funext fun a => Fin.ext (by match a with | ⟨0, _⟩ => rfl | ⟨1, _⟩ => rfl)
  have er : ∀ k : Fin 128, ridx_main_v6 (ix2 p j) k = ix2 k j := fun k =>
    funext fun a => Fin.ext (by match a with | ⟨0, _⟩ => rfl | ⟨1, _⟩ => rfl)
  have eb : idx_main_v7 (idx_main_v8 (ix2 p j)) = ix1 j :=
    funext fun a => Fin.ext (by match a with | ⟨0, _⟩ => rfl)
  have hs : (∑ k : Fin 128, val_main_v5 (F := Ideal) x0 x1 x2 (lidx_main_v6 (ix2 p j) k) * x3 (ridx_main_v6 (ix2 p j) k))
      = ∑ k : Fin 128, Cert.Mlp.hid1 (x0 (ix1 p)) x1 x2 k * x3 (ix2 k j) :=
    Finset.sum_congr rfl fun k _ => by rw [el, er, v5_at]
  rw [val_main_v10_apply, val_main_v9_apply, val_main_v6_apply, hs, val_main_v8_apply, val_main_v7_apply, eb,
    val_main_call1_v0_apply, val_main_call1_cst_apply,
    Ideal.addf_def, Ideal.maximumf_def, Ideal.ofBits_def, Ideal.ofBits_zero_f32]
  rfl

/-- The last stage at row `p`, column `e` is the output layer of `t[p]` at component `e`: the sum over the hidden
    units of second-layer values times `W3[k, e]`, plus `b3[e]`. -/
theorem v14_at (x0 : FVec Ideal S100000 .f32) (x1 : FVec Ideal S1x128 .f32) (x2 : FVec Ideal S128 .f32)
    (x3 : FVec Ideal S128x128 .f32) (x4 : FVec Ideal S128 .f32) (x5 : FVec Ideal S128x5 .f32) (x6 : FVec Ideal S5 .f32)
    (p : Fin 100000) (e : Fin 5) :
    val_main_v14 (F := Ideal) x0 x1 x2 x3 x4 x5 x6 (ix2 p e) = Cert.Mlp.outV (x0 (ix1 p)) x1 x2 x3 x4 x5 x6 e := by
  have el : ∀ k : Fin 128, lidx_main_v11 (ix2 p e) k = ix2 p k := fun k =>
    funext fun a => Fin.ext (by match a with | ⟨0, _⟩ => rfl | ⟨1, _⟩ => rfl)
  have er : ∀ k : Fin 128, ridx_main_v11 (ix2 p e) k = ix2 k e := fun k =>
    funext fun a => Fin.ext (by match a with | ⟨0, _⟩ => rfl | ⟨1, _⟩ => rfl)
  have eb : idx_main_v12 (idx_main_v13 (ix2 p e)) = ix1 e :=
    funext fun a => Fin.ext (by match a with | ⟨0, _⟩ => rfl)
  have hs : (∑ k : Fin 128, val_main_v10 (F := Ideal) x0 x1 x2 x3 x4 (lidx_main_v11 (ix2 p e) k) * x5 (ridx_main_v11 (ix2 p e) k))
      = ∑ k : Fin 128, Cert.Mlp.hid2 (x0 (ix1 p)) x1 x2 x3 x4 k * x5 (ix2 k e) :=
    Finset.sum_congr rfl fun k _ => by rw [el, er, v10_at]
  rw [val_main_v14_apply, val_main_v11_apply, hs, val_main_v13_apply, val_main_v12_apply, eb, Ideal.addf_def]
  rfl

/-- The reference's last stage is the specification's array. -/
theorem ref_eq (x0 : FVec Ideal S100000 .f32) (x1 : FVec Ideal S1x128 .f32) (x2 : FVec Ideal S128 .f32)
    (x3 : FVec Ideal S128x128 .f32) (x4 : FVec Ideal S128 .f32) (x5 : FVec Ideal S128x5 .f32) (x6 : FVec Ideal S5 .f32) :
    val_main_v14 (F := Ideal) x0 x1 x2 x3 x4 x5 x6 = Cert.Mlp.out x0 x1 x2 x3 x4 x5 x6 := by
  funext i
  obtain ⟨p, e, rfl⟩ : ∃ (p : Fin 100000) (e : Fin 5), i = ix2 p e := ⟨i 0, i 1, eq_ix2 i⟩
  rw [v14_at, Cert.Mlp.out_apply]

end Cert.Mlp.Ref

end
-- ==== Proof.Claims.lean ====
/-
  The five claims of the certificate, each from the module that carries its mathematics.

  The word-level program's frame is the run of its one pipeline between its host operations. The idealized kernel
  program, run from arguments all of whose entries are finite, ends with its result array holding the three-layer
  perceptron of every input (the specification's array `Cert.Mlp.out`): the pipeline's output array ends at the
  perceptron laid out in five rows of 100000, and the one host operation after the region transposes it. The
  idealized reference program ends at the same array, its stages read one by one. So the two agree, from memories
  that agree on the arguments. The one rewrite the idealization made, a narrowing to the short format followed by
  a widening back, is the identity over the extended reals.
-/
import proofs.«137531_g64828236366229_cont_9to1_m_1379_10_alg».proof.Defs
import proofs.«137531_g64828236366229_cont_9to1_m_1379_10_alg».proof.Proof.KernelFrame
import proofs.«137531_g64828236366229_cont_9to1_m_1379_10_alg».proof.Proof.IdealRun
import proofs.«137531_g64828236366229_cont_9to1_m_1379_10_alg».proof.Proof.IdealArray
import proofs.«137531_g64828236366229_cont_9to1_m_1379_10_alg».proof.Proof.Finite
import proofs.«137531_g64828236366229_cont_9to1_m_1379_10_alg».proof.Proof.RefValue
import proofs.«137531_g64828236366229_cont_9to1_m_1379_10_alg».proof.Proof.Gen.ReferenceIdeal.Run
import proofs.«137531_g64828236366229_cont_9to1_m_1379_10_alg».proof.Proof.Gen.ReferenceIdeal.Read
import proofs.«137531_g64828236366229_cont_9to1_m_1379_10_alg».proof.Proof.Gen.Pre_finite_inputs
import Idealize.ShloMosaic.PureOps.IdealRules

noncomputable section

namespace Cert.Proof.Claims

open Idealize.ShloMosaic Idealize.ShloMosaic.TcCoe Idealize.SL.Sem

/-! ## The word-level program -/

/-- The word-level program terminates without fault and leaves its arguments as they were. -/
theorem frame_k : Cert.frame_Kernel := fun m ρ _ => Cert.Kernel.Hand.frame m ρ

/-! ## The idealized kernel program -/

section Ideal

open Cert.KernelIdeal Cert.KernelIdeal.Gen Cert.KernelIdeal.Run

variable (m : (ℓ : Loc nD τ sig) → Buf (Elt Ideal) ℓ)

/-- The specification's array of core `c`'s arguments: row `p` the perceptron of input `p`. -/
def spec (c : Dev nD) : Buf (Elt Ideal) ((c.tc : Thread nD τ).loc main_v24) :=
  Cert.Mlp.out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The program's result after the one host operation that follows the region: the transposition of the pipeline's
    output array as the region leaves it. -/
theorem tail_result (c : Dev nD) :
    Pipeline.afterTail₀ cfgs (dats m) 0 (E0 m) [hostOps1] c main_v24 = Opd.outT (F := Ideal) ((dats m 0 c).arrAt 6 cfg0.N) := by
  unfold Pipeline.afterTail₀
  show StableHlo.after hostOps1 _ (Proc.devRef .tc main_v24) = _
  after_results
  exact congrArg (fun o => transpose S100000x5 [1, 0] o transposes_S5x100000_S100000x5_1_0)
    (Pipeline.withArrays_arr spec0 launch0.win.arr_inj c (E0 m c) (fun w => (dats m 0 c).arrAt w cfg0.N) 6)

/-- From arguments with finite entries, the idealized kernel program terminates without fault with its result at the
    specification's array and its arguments as they were. The result and the arguments are no array of the pipeline's
    windows, so each ends as the host operation after the region leaves it: the arguments untouched, the result the
    transposition of the output array, which holds the perceptron of every input where the inputs and the first
    layer's weights and biases are real numbers — as the precondition says they are. -/
theorem kernel_run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v24) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨h0, h1, h2⟩ := Cert.Mlp.Finite.real_of_pre _ _ _ _ _ _ _ (hpre c)
  have hrest := (h c).2
  refine ⟨?_,
    (hrest main_arg0 (Pipeline.mem_restRefs_of main_arg0 (by decide) (by decide))).trans (T_arg0 m (dats m) c),
    (hrest main_arg1 (Pipeline.mem_restRefs_of main_arg1 (by decide) (by decide))).trans (T_arg1 m (dats m) c),
    (hrest main_arg2 (Pipeline.mem_restRefs_of main_arg2 (by decide) (by decide))).trans (T_arg2 m (dats m) c),
    (hrest main_arg3 (Pipeline.mem_restRefs_of main_arg3 (by decide) (by decide))).trans (T_arg3 m (dats m) c),
    (hrest main_arg4 (Pipeline.mem_restRefs_of main_arg4 (by decide) (by decide))).trans (T_arg4 m (dats m) c),
    (hrest main_arg5 (Pipeline.mem_restRefs_of main_arg5 (by decide) (by decide))).trans (T_arg5 m (dats m) c),
    (hrest main_arg6 (Pipeline.mem_restRefs_of main_arg6 (by decide) (by decide))).trans (T_arg6 m (dats m) c)⟩
  rw [hrest main_v24 (Pipeline.mem_restRefs_of main_v24 (by decide) (by decide)), tail_result m c,
    out_rows m c h0 h1 h2, outT_specRows m c]
  rfl

end Ideal

/-- The idealized kernel program's frame: the run above, its result's contents dropped. -/
theorem frame_ki : Cert.frame_KernelIdeal := fun m ρ hpre =>
  (θ_run Cert.KernelIdeal.defs _ _).mono (fun _ h c => (h c).2) (kernel_run m ρ hpre)

/-! ## The idealized reference program -/

/-- The reference program, a sequence of host operations, terminates with its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization, and the agreement -/

/-- The one rewrite of the idealization: over the extended reals a narrowing to the short format followed by the
    widening back is the identity; on words it is the rounding through the short format. -/
theorem preserves : Cert.preserves_Kernel_KernelIdeal :=
  IdealRules.truncf_extf.statement Cert.KernelIdeal.S1x12800 .f32 .bf16

/-- Over the extended reals, from memories that agree on the seven arguments, the kernel program and the reference
    program both end at the specification's array of those arguments: the kernel program by its run above, the
    reference program because its last stage is, index by index, the perceptron of the specification. -/
theorem algebraic : Cert.algebraic_KernelIdeal_ReferenceIdeal := by
  intro m ρ m' ρ' hpre hagree
  refine ⟨fun c => spec m c, kernel_run m ρ hpre, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v14_eq, Cert.Mlp.Ref.ref_eq, a0, a1, a2, a3, a4, a5, a6]
  rfl

end Cert.Proof.Claims

end
-- ==== Proof.lean ====
/-
  The certificate's claim, assembled. A fused three-layer perceptron kernel (one pipeline over eight blocks of
  12800 inputs, between host operations that lay out its operands and transpose its result) is shown against the
  plain reference: the word-level program, its idealization over the extended reals and the idealized reference
  each run to the end without a fault and leave their arguments unchanged; the idealization differs from the
  word-level program by one narrowing-and-widening, the identity over the extended reals; and from arguments with
  finite entries the idealized kernel program and the idealized reference end with the same result array, the
  perceptron of every input. The frame of the word-level program is Proof/KernelFrame.lean's; the idealized kernel
  program's run, its output array and the precondition's reading are Proof/IdealRun.lean's, Proof/IdealArray.lean's
  and Proof/Finite.lean's; the reference's stages are read in Proof/RefValue.lean against Proof/Spec.lean's function;
  Proof/Claims.lean states the five conjuncts from them. The programs' stated side conditions are witnessed by the
  generated Proof/Gen/ modules.
-/
import proofs.«137531_g64828236366229_cont_9to1_m_1379_10_alg».proof.Defs
import proofs.«137531_g64828236366229_cont_9to1_m_1379_10_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
